-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S512 : Shape := ⟨1, ![512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel

variable [Facts]

def fn {F : FTy → Type} [FloatOps F] (main_arg0 : FVec F S512x512 .f32) (main_arg1 : IVec S512 32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  main_v3
-- ==== Kernel.lean ====
abbrev S512x512 : Shape := ⟨2, ![512, 512]⟩
abbrev S512 : Shape := ⟨1, ![512]⟩
abbrev S512x1 : Shape := ⟨2, ![512, 1]⟩
abbrev S1x512 : Shape := ⟨2, ![1, 512]⟩
abbrev S_ : Shape := ⟨0, ![]⟩
abbrev S1x1 : Shape := ⟨2, ![1, 1]⟩
abbrev S64x128 : Shape := ⟨2, ![64, 128]⟩
abbrev S64x128x1 : Shape := ⟨3, ![64, 128, 1]⟩
abbrev S64x1x128 : Shape := ⟨3, ![64, 1, 128]⟩
abbrev S64x128x128 : Shape := ⟨3, ![64, 128, 128]⟩
abbrev S64 : Shape := ⟨1, ![64]⟩
abbrev S64x1 : Shape := ⟨2, ![64, 1]⟩
abbrev S1 : Shape := ⟨1, ![1]⟩

abbrev nBuf : Space → Nat
  | .hbm => 27
  | .vmem => 12
  | .smem => 0
  | _ => 0

abbrev bufTy : (tb : Table) → Fin (tcTables nBuf tb) → BufTy
  | .hbm, ⟨0, _⟩ => ⟨S512x512, .f32⟩
  | .hbm, ⟨1, _⟩ => ⟨S512, .i32⟩
  | .hbm, ⟨2, _⟩ => ⟨S512x1, .i32⟩
  | .hbm, ⟨3, _⟩ => ⟨S1x512, .i32⟩
  | .hbm, ⟨4, _⟩ => ⟨S512x512, .i32⟩
  | .hbm, ⟨5, _⟩ => ⟨S512x512, .i32⟩
  | .hbm, ⟨6, _⟩ => ⟨S512x512, .i1⟩
  | .hbm, ⟨7, _⟩ => ⟨S512x512, .i32⟩
  | .hbm, ⟨8, _⟩ => ⟨S512x512, .i32⟩
  | .hbm, ⟨9, _⟩ => ⟨S_, .i32⟩
  | .hbm, ⟨10, _⟩ => ⟨S512x512, .i32⟩
  | .hbm, ⟨11, _⟩ => ⟨S512x512, .i32⟩
  | .hbm, ⟨12, _⟩ => ⟨S512x512, .i1⟩
  | .hbm, ⟨13, _⟩ => ⟨S512x512, .i1⟩
  | .hbm, ⟨14, _⟩ => ⟨S512x512, .i1⟩
  | .hbm, ⟨15, _⟩ => ⟨S512x512, .f32⟩
  | .hbm, ⟨16, _⟩ => ⟨S512x512, .i1⟩
  | .hbm, ⟨17, _⟩ => ⟨S512x512, .i1⟩
  | .hbm, ⟨18, _⟩ => ⟨S512x512, .f32⟩
  | .hbm, ⟨19, _⟩ => ⟨S512x512, .f32⟩
  | .hbm, ⟨20, _⟩ => ⟨S1x1, .f32⟩
  | .hbm, ⟨21, _⟩ => ⟨S1x1, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S512x512, .f32⟩
  | .local _ .vmem, ⟨1, _⟩ => ⟨S512x512, .f32⟩
  | .local _ .vmem, ⟨2, _⟩ => ⟨S64x128, .f32⟩
  | .local _ .vmem, ⟨3, _⟩ => ⟨S64x128, .f32⟩
  | .local _ .vmem, ⟨4, _⟩ => ⟨S64x128, .f32⟩
  | .local _ .vmem, ⟨5, _⟩ => ⟨S64x128, .f32⟩
  | .local _ .vmem, ⟨6, _⟩ => ⟨S64x128, .f32⟩
  | .local _ .vmem, ⟨7, _⟩ => ⟨S64x128, .f32⟩
  | .local _ .vmem, ⟨8, _⟩ => ⟨S64x128, .f32⟩
  | .local _ .vmem, ⟨9, _⟩ => ⟨S64x128, .f32⟩
  | .local _ .vmem, ⟨10, _⟩ => ⟨S1x1, .f32⟩
  | .local _ .vmem, ⟨11, _⟩ => ⟨S1x1, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17_0 : Ref sig .tc := ⟨.hbm, 20, rfl⟩
abbrev main_v17_1 : Ref sig .tc := ⟨.hbm, 21, rfl⟩
abbrev main_v18 : Ref sig .tc := ⟨.hbm, 22, rfl⟩
abbrev main_cst : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg5_0 : Ref sig .tc := ⟨.vmem, 11, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10
abbrev cc1_sem5_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨3, ![8, 4, 4], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S64x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S64x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S64x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S64x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, true]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

class Facts₀ : Prop where
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  bcast_S_S512x512 : S_.BroadcastsInDim S512x512 (![] : Fin 0 → Fin S512x512.rank)
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  transposes_S512x512_p1_0_S512x512 : S512x512.Transposes [1, 0] S512x512
  reduces_S512x512_S512 : S512x512.Reduces [1] S512
  shapeCasts_S512_S512x1 : S512.ShapeCasts S512x1
  transposes_S512x1_p1_0_S1x512 : S512x1.Transposes [1, 0] S1x512
  broadcasts_S512x1_S512x512 : S512x1.Broadcasts S512x512
  broadcasts_S1x512_S512x512 : S1x512.Broadcasts S512x512
  inb_S1x1_S1x1_0_0 : ∀ a, (![0, 0] : Fin 2 → Nat) a + S1x1.size a ≤ S1x1.size a
  h_S1x1 : 0 < S1x1.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  shapeCasts_S64x128_S64x128x1 : S64x128.ShapeCasts S64x128x1
  shapeCasts_S64x128_S64x1x128 : S64x128.ShapeCasts S64x1x128
  broadcasts_S64x128x1_S64x128x128 : S64x128x1.Broadcasts S64x128x128
  broadcasts_S64x1x128_S64x128x128 : S64x1x128.Broadcasts S64x128x128
  reduces_S64x128x128_S64x128 : S64x128x128.Reduces [2] S64x128
  reduces_S64x128_S64 : S64x128.Reduces [1] S64
  shapeCasts_S64_S64x1 : S64.ShapeCasts S64x1
  reduces_S64x1_S1 : S64x1.Reduces [0] S1
  shapeCasts_S1_S1x1 : S1.ShapeCasts S1x1
  shapeCasts_S1x1_S1x1 : S1x1.ShapeCasts S1x1
  shapeCasts_S1x1_S_ : S1x1.ShapeCasts S_
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x512.size a
  hwx0_0 : ∀ i : grid0.Coords, EltTy.bits .f32 = 32 ∨ (Rect.block (s := S512x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x128.size a ≤ S512x512.size a
  hwx1_0 : ∀ i : grid1.Coords, EltTy.bits .f32 = 32 ∨ (Rect.block (s := S512x512) S64x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S512x512.size a
  hwx1_1 : ∀ i : grid1.Coords, EltTy.bits .f32 = 32 ∨ (Rect.block (s := S512x512) S64x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S512x512.size a
  hwx1_2 : ∀ i : grid1.Coords, EltTy.bits .f32 = 32 ∨ (Rect.block (s := S512x512) S64x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S512x512.size a
  hwx1_3 : ∀ i : grid1.Coords, EltTy.bits .f32 = 32 ∨ (Rect.block (s := S512x512) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v16) S512x512.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v16) S64x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S64x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S64x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S64x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v17_0) S1x1.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17_1) S1x1.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S512x512 : Shape := ⟨2, ![512, 512]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512x1 : Shape := ⟨3, ![512, 512, 1]⟩
abbrev S512x1x512 : Shape := ⟨3, ![512, 1, 512]⟩
abbrev S512x512x512 : Shape := ⟨3, ![512, 512, 512]⟩

abbrev nBuf : Space → Nat
  | .hbm => 59
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512, .i32⟩
  | .hbm, ⟨2, _⟩ => ⟨S512x512, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S1x512, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S512x512, .f32⟩
  | .hbm, ⟨11, _⟩ => ⟨S512x512, .f32⟩
  | .hbm, ⟨12, _⟩ => ⟨S_, .f32⟩
  | .hbm, ⟨13, _⟩ => ⟨S512x512, .f32⟩
  | .hbm, ⟨14, _⟩ => ⟨S512x512, .f32⟩
  | .hbm, ⟨15, _⟩ => ⟨S512x512, .f32⟩
  | .hbm, ⟨16, _⟩ => ⟨S512x1, .i32⟩
  | .hbm, ⟨17, _⟩ => ⟨S1x512, .i32⟩
  | .hbm, ⟨18, _⟩ => ⟨S512x512, .i32⟩
  | .hbm, ⟨19, _⟩ => ⟨S512x512, .i32⟩
  | .hbm, ⟨20, _⟩ => ⟨S512x512, .i1⟩
  | .hbm, ⟨21, _⟩ => ⟨S512x512, .i32⟩
  | .hbm, ⟨22, _⟩ => ⟨S512x512, .i32⟩
  | .hbm, ⟨23, _⟩ => ⟨S_, .i32⟩
  | .hbm, ⟨24, _⟩ => ⟨S512x512, .i32⟩
  | .hbm, ⟨25, _⟩ => ⟨S512x512, .i32⟩
  | .hbm, ⟨26, _⟩ => ⟨S512x512, .i1⟩
  | .hbm, ⟨27, _⟩ => ⟨S512x512, .i1⟩
  | .hbm, ⟨28, _⟩ => ⟨S512x512, .i1⟩
  | .hbm, ⟨29, _⟩ => ⟨S512x512, .i1⟩
  | .hbm, ⟨30, _⟩ => ⟨S512x512, .i1⟩
  | .hbm, ⟨31, _⟩ => ⟨S512x512x1, .i1⟩
  | .hbm, ⟨32, _⟩ => ⟨S512x1x512, .i1⟩
  | .hbm, ⟨33, _⟩ => ⟨S512x512x512, .i1⟩
  | .hbm, ⟨34, _⟩ => ⟨S512x512x512, .i1⟩
  | .hbm, ⟨35, _⟩ => ⟨S512x512x512, .i1⟩
  | .hbm, ⟨36, _⟩ => ⟨S512x512x1, .f32⟩
  | .hbm, ⟨37, _⟩ => ⟨S512x1x512, .f32⟩
  | .hbm, ⟨38, _⟩ => ⟨S512x512x512, .f32⟩
  | .hbm, ⟨39, _⟩ => ⟨S512x512x512, .f32⟩
  | .hbm, ⟨40, _⟩ => ⟨S512x512x512, .f32⟩
  | .hbm, ⟨41, _⟩ => ⟨S_, .f32⟩
  | .hbm, ⟨42, _⟩ => ⟨S512x512x512, .f32⟩
  | .hbm, ⟨43, _⟩ => ⟨S512x512x512, .f32⟩
  | .hbm, ⟨44, _⟩ => ⟨S_, .f32⟩
  | .hbm, ⟨45, _⟩ => ⟨S512x512x512, .f32⟩
  | .hbm, ⟨46, _⟩ => ⟨S512x512x512, .f32⟩
  | .hbm, ⟨47, _⟩ => ⟨S_, .f32⟩
  | .hbm, ⟨48, _⟩ => ⟨S512x512x512, .f32⟩
  | .hbm, ⟨49, _⟩ => ⟨S512x512x512, .f32⟩
  | .hbm, ⟨50, _⟩ => ⟨S512x512x512, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_c : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_cst_1 : Ref sig .tc := ⟨.hbm, 41, rfl⟩
abbrev main_v36 : Ref sig .tc := ⟨.hbm, 42, rfl⟩
abbrev main_v37 : Ref sig .tc := ⟨.hbm, 43, rfl⟩
abbrev main_call0_cst : Ref sig .tc := ⟨.hbm, 44, rfl⟩
abbrev main_call0_v0 : Ref sig .tc := ⟨.hbm, 45, rfl⟩
abbrev main_v38 : Ref sig .tc := ⟨.hbm, 46, rfl⟩
abbrev main_cst_2 : Ref sig .tc := ⟨.hbm, 47, rfl⟩
abbrev main_call1_v0 : Ref sig .tc := ⟨.hbm, 48, rfl⟩
abbrev main_v39 : Ref sig .tc := ⟨.hbm, 49, rfl⟩
abbrev main_v40 : Ref sig .tc := ⟨.hbm, 50, rfl⟩
abbrev main_c_3 : Ref sig .tc := ⟨.hbm, 51, rfl⟩
abbrev main_v41 : Ref sig .tc := ⟨.hbm, 52, rfl⟩
abbrev main_c_4 : Ref sig .tc := ⟨.hbm, 53, rfl⟩
abbrev main_v42 : Ref sig .tc := ⟨.hbm, 54, rfl⟩
abbrev main_v43 : Ref sig .tc := ⟨.hbm, 55, rfl⟩
abbrev main_cst_5 : Ref sig .tc := ⟨.hbm, 56, rfl⟩
abbrev main_v44 : Ref sig .tc := ⟨.hbm, 57, rfl⟩
abbrev main_v45 : Ref sig .tc := ⟨.hbm, 58, rfl⟩

abbrev nD : Nat := 1
abbrev τ : Topo := Topo.v7x

variable {F : FTy → Type} [FloatOps F]

class Facts₀ : Prop where
  reducesTo_S512x512_S512_d1 : S512x512.ReducesTo [1] S512
  h_S_ : 0 < S_.numel
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  transposes_S512x512_S512x512_1_0 : S512x512.Transposes [1, 0] S512x512
  bcast_S_S512x512 : S_.BroadcastsInDim S512x512 (![] : Fin 0 → Fin S512x512.rank)
  bcast_S512x512_S512x512x1_0_1 : S512x512.BroadcastsInDim S512x512x1 (![0, 1] : Fin 2 → Fin S512x512x1.rank)
  bcast_S512x512_S512x1x512_0_2 : S512x512.BroadcastsInDim S512x1x512 (![0, 2] : Fin 2 → Fin S512x1x512.rank)
  bcast_S512x512x1_S512x512x512_0_1_2 : S512x512x1.BroadcastsInDim S512x512x512 (![0, 1, 2] : Fin 3 → Fin S512x512x512.rank)
  bcast_S512x1x512_S512x512x512_0_1_2 : S512x1x512.BroadcastsInDim S512x512x512 (![0, 1, 2] : Fin 3 → Fin S512x512x512.rank)
  bcast_S_S512x512x512 : S_.BroadcastsInDim S512x512x512 (![] : Fin 0 → Fin S512x512x512.rank)
  natLt_1_32 : 1 < 32
  reducesTo_S512x512x512_S_d0_1_2 : S512x512x512.ReducesTo [0, 1, 2] S_
  dot_S512x512_S512x512_S512x512_1_0_0_1_n_n_wf : DotDims.WF S512x512 S512x512 S512x512 [1] [0] [0] [1] [] []

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

class Facts : Prop extends Facts₀ where

variable [Facts]
-- ==== Proof.K.Defs.lean ====
import proofs.«121024_j55929064128529_1_alg».proof.Proof.Gen.Kernel.Launch
import proofs.«121024_j55929064128529_1_alg».proof.Proof.Gen.Kernel.Skeleton
import proofs.«121024_j55929064128529_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! Proof data of the two pipelines, at a parameter `V`: the TensorCore's buffer contents when a region is entered.

Region 0 runs once on whole 512×512 blocks: its output buffer ends at the body's one stored value.
Region 1 visits 128 points; its two 1×1 outputs stay in their staging buffers from point to point and are
accumulators: at the first point the body resets them and adds the point's partial sums, at every later point it
adds the point's partial sums to what the point before left. -/

variable (V : (c : Dev nD) → (b : Ref sig .tc) → Buf (Elt F) ((c : Thread nD τ).loc b))

/-! ## Region 0 -/

/-- Window `w`'s block of region 0 at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 512×512 rectangle the body of region 0 loads and stores through. -/
abbrev rect0 : Rect S512x512 := Rect.unit (s := S512x512) ![0, 0] S512x512.size inb_S512x512_S512x512_0_0

/-- What region 0's body leaves in the output's staging buffer: the distance payload of the loaded block. -/
def out0_1 (x0 : Vec F S512x512 .f32) : Vec F S512x512 .f32 :=
  View.canon [⟨rect0, k0_pay1 (View.ld x0 rect0)⟩]

/-- Proof data of pipeline 0. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-! ## Region 1 -/

/-- Window `w`'s block of region 1 at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The point's partial sum of the masked hinge terms, as a 1×1 vector: the body's pure arithmetic on the four input blocks. -/
def part4 (c : Dev nD) (t : Fin cfg1.N) : Vec F S1x1 .f32 :=
  k1_pay6 (iblk1 V c 0 t) (iblk1 V c 1 t) (iblk1 V c 2 t) (iblk1 V c 3 t)
/-- The point's partial row counts of the mask (64 rows), before the last lane reduction. -/
def part5 (c : Dev nD) (t : Fin cfg1.N) : Vec F S64 .f32 :=
  k1_pay7 (iblk1 V c 2 t) (iblk1 V c 3 t)

/-- The running sum after the body at position `n`: reset to zero at the first point, then each point's partial sum added. -/
def acc4 (c : Dev nD) : (n : ℕ) → n < cfg1.N → Vec F S1x1 .f32
  | 0, hn => k1_pay1 (part4 V c ⟨0, hn⟩) (k1_pay3 (F := F))
  | n + 1, hn => k1_pay1 (part4 V c ⟨n + 1, hn⟩) (acc4 c n (Nat.lt_of_succ_lt hn))
/-- The running count after the body at position `n`, likewise. -/
def acc5 (c : Dev nD) : (n : ℕ) → n < cfg1.N → Vec F S1x1 .f32
  | 0, hn => k1_pay2 (part5 V c ⟨0, hn⟩) (k1_pay4 (F := F))
  | n + 1, hn => k1_pay2 (part5 V c ⟨n + 1, hn⟩) (acc5 c n (Nat.lt_of_succ_lt hn))

theorem acc4_zero (c : Dev nD) (t : Fin cfg1.N) (h : t.val = 0) :
    acc4 V c t.val t.isLt = k1_pay1 (part4 V c t) (k1_pay3 (F := F)) := by
  obtain ⟨n, hn⟩ := t; cases n with
  | zero => rfl
  | succ n => exact absurd h (Nat.succ_ne_zero n)
theorem acc4_succ (c : Dev nD) (t : Fin cfg1.N) (h : t.val ≠ 0) :
    acc4 V c t.val t.isLt = k1_pay1 (part4 V c t) (acc4 V c (t.val - 1) (Nat.lt_of_le_of_lt (Nat.sub_le _ _) t.isLt)) := by
  obtain ⟨n, hn⟩ := t; cases n with
  | zero => exact absurd rfl h
  | succ n => rfl
theorem acc5_zero (c : Dev nD) (t : Fin cfg1.N) (h : t.val = 0) :
    acc5 V c t.val t.isLt = k1_pay2 (part5 V c t) (k1_pay4 (F := F)) := by
  obtain ⟨n, hn⟩ := t; cases n with
  | zero => rfl
  | succ n => exact absurd h (Nat.succ_ne_zero n)
theorem acc5_succ (c : Dev nD) (t : Fin cfg1.N) (h : t.val ≠ 0) :
    acc5 V c t.val t.isLt = k1_pay2 (part5 V c t) (acc5 V c (t.val - 1) (Nat.lt_of_le_of_lt (Nat.sub_le _ _) t.isLt)) := by
  obtain ⟨n, hn⟩ := t; cases n with
  | zero => exact absurd rfl h
  | succ n => rfl

/-- Proof data of pipeline 1. Windows 0 and 1 read ONE array (the distance matrix): each holds half of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => acc4 V c t.val t.isLt
    | ⟨5, _⟩ => acc5 V c t.val t.isLt
  Φ _ := Pipeline.ΦA spec1 c
  q w := match w with
    | ⟨0, _⟩ => (fullShare : PosShare TreeShare).left
    | ⟨1, _⟩ => (fullShare : PosShare TreeShare).right
    | _ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = acc4 V c t.val t.isLt := by dsimp only [dat1]
theorem after1_5 (c : Dev nD) (t : Fin cfg1.N) : (dat1 V c).after 5 t = acc5 V c t.val t.isLt := by dsimp only [dat1]

end Cert.Kernel.Hand

end
-- ==== Proof.K.Bounds.lean ====
import proofs.«121024_j55929064128529_1_alg».proof.Proof.Gen.Kernel.Launch
import proofs.«121024_j55929064128529_1_alg».proof.Proof.Gen.Kernel.Skeleton
import proofs.«121024_j55929064128529_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«121024_j55929064128529_1_alg».proof.Proof.K.Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary of @main

@main is: 17 host operations (the two label masks), pallas_call 0 (the distance matrix), pallas_call 1 (the masked sum and
the count, accumulated over 128 grid points), 5 host operations (the count clamped at one, the quotient). -/

/-- Core `c`'s buffers at launch. -/
abbrev W0 : Dev nD → Valuation τ sig (Elt F) := fun c b => (s₀ m ρ).mem ((c : Dev nD), b)
/-- After the first host stretch: region 0's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its output array at what its one write-back leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: the two 1×1 results at what the write-backs after the last point leave; the inputs (the distance
    matrix, read through two windows, and the two masks) as entered. -/
def W3 (c : Dev nD) : Valuation τ sig (Elt F) :=
  Function.update (Function.update (W2 m ρ c) (Proc.devRef .tc main_v17_0) ((dat1 (V2 m ρ) c).arrAt 4 cfg1.N))
    (Proc.devRef .tc main_v17_1) ((dat1 (V2 m ρ) c).arrAt 5 cfg1.N)
abbrev V3 : (c : Dev nD) → (b : Ref sig .tc) → Buf (Elt F) ((c : Thread nD τ).loc b) := fun c b => W3 m ρ c b
theorem W3_sum (c : Dev nD) : W3 m ρ c (Proc.devRef .tc main_v17_0) = (dat1 (V2 m ρ) c).arrAt 4 cfg1.N := by
  unfold W3
  rw [Function.update_of_ne (StableHlo.devRef_ne_of_ne (by decide) : (Proc.devRef .tc main_v17_0 : DevRef τ sig) ≠ Proc.devRef .tc main_v17_1),
    Function.update_self]
theorem W3_cnt (c : Dev nD) : W3 m ρ c (Proc.devRef .tc main_v17_1) = (dat1 (V2 m ρ) c).arrAt 5 cfg1.N := by
  unfold W3; rw [Function.update_self]
theorem W3_of_ne (c : Dev nD) (b : Ref sig .tc) (h0 : b ≠ main_v17_0) (h1 : b ≠ main_v17_1) :
    W3 m ρ c (Proc.devRef .tc b) = W2 m ρ c (Proc.devRef .tc b) := by
  unfold W3
  rw [Function.update_of_ne (StableHlo.devRef_ne_of_ne h1 : (Proc.devRef .tc b : DevRef τ sig) ≠ Proc.devRef .tc main_v17_1),
    Function.update_of_ne (StableHlo.devRef_ne_of_ne h0 : (Proc.devRef .tc b : DevRef τ sig) ≠ Proc.devRef .tc main_v17_0)]
/-- After the last host stretch: the return. -/
abbrev W4 : Dev nD → Valuation τ sig (Elt F) := fun c => StableHlo.after hostOps2 (W3 m ρ c)

end Cert.Kernel.Hand

end
-- ==== Proof.K.Body0.lean ====
import proofs.«121024_j55929064128529_1_alg».proof.Proof.Gen.Kernel.Launch
import proofs.«121024_j55929064128529_1_alg».proof.Proof.Gen.Kernel.Skeleton
import proofs.«121024_j55929064128529_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«121024_j55929064128529_1_alg».proof.Proof.K.Defs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input block in its staging buffer -/

/-- Window 0 is an input, uncut and never idle, and the body leaves its block where it found it; so at every point
    its current staging buffer holds the 512×512 array's block there, whether the point fetched it or not. -/
theorem before0_in (c : Dev nD) (t : Fin cfg0.N) (d) : (dat0 V c).before 0 t d = iblk0 V c 0 t := by
  have hkeep : ∀ t, (cfg0.win 0).cut (cfg0.grid.coords t) ((dat0 V c).after 0 t) = (dat0 V c).blockOf 0 t := fun t => by
    rw [after0_0]; unfold Dat.blockOf iblk0; rw [A_eq0]; try rfl
  rw [(dat0 V c).before_in_eq_fetched 0 rfl (fun _ => rfl) (fun _ _ _ => rfl) hkeep t d]
  unfold Dat.fetched Dat.blockOf iblk0; rw [A_eq0]; try rfl

/-! ## The one store covers the output buffer -/

/-- The body stores once, through the whole 512×512 rectangle: every index of the output buffer lies under that store. -/
theorem store_covers0 (p : Vec F S512x512 .f32) (y : S512x512.Idx) :
    ∃ pc ∈ ([⟨rect0, p⟩] : List (View.Piece (Elt F) S512x512 .f32)), y ∈ pc.1.set :=
  View.cover_of_tiled [⟨rect0, p⟩] S512x512.size (by rfl) y

/-! ## The distance kernel on whole buffers -/

set_option maxHeartbeats 1000000 in
/-- The distance kernel on two whole staging memrefs, the input's reading `x0` and the output's holding anything: it
    loads the input whole, loads the output whole (a value it never uses), and stores the distance payload of the
    loaded input whole into the output. It runs to a continuation that holds the input as it was and the output at
    `out0_1 x0`: a read of the buffer after a covering store is the store's canonical contents. -/
theorem dist_kernel_runs (c : Dev nD) (E : Set ℕ) (i : grid0.Coords)
    (arg1 : Memref sig .tc .vmem S512x512 .f32) (harg1 : arg1.IsWhole)
    (arg2 : Memref sig .tc .vmem S512x512 .f32) (harg2 : arg2.IsWhole)
    (x0 : Vec F S512x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__dist_kernel i arg1 harg1 arg2 harg2) K := by
  simp only [cc0__dist_kernel_eq_skeleton]; unfold cc0__dist_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (store_covers0 _)

/-! ## The body at a point of the grid -/

/-- What the pipeline hands the body at point `t`: the invariant, the core's debts, and each window's current staging
    buffer whole at what the schedule left in it. -/
def distPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- What the body hands back: the same invariant and debts, the input's buffer at its block, the output's at the
    distance payload of that block. -/
def distPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds its block (`before0_in`), so the kernel's run applies at that block;
    the invariant and the debts do not depend on the position and pass through untouched. -/
theorem dist_body_runs (c : Dev nD) (t : Fin cfg0.N) :
    distPre V c t ⊢ wp frame (wpE (defs₀ (F := F)) Variants.none c none) Set.univ (bodyAt0 t) (fun _ => distPost V c t) := by
  unfold distPre distPost bodyAt0
  simp only [before0_in]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, Hin⟩, ⟨%d1, Hout⟩⟩
  iapply (dist_kernel_runs c Set.univ _ _ _ _ _ (iblk0 V c 0 t) _)
  isplitl [Hin]; · iexact Hin
  isplitl [Hout]; · iexists _; iexact Hout
  iintro ⟨Hin, Hout⟩
  isplitl [HΦ]; · iexact HΦ
  isplitl [Ho]; · iexact Ho
  isplitl [Hin]; · iexact Hin
  iexact Hout

/-- The pipeline library's body obligation for region 0, at every point, on any core. -/
theorem body_obligation0 (c : Dev nD) : BodyObligation (dat0 (F := F) V c) (defs₀ (F := F)) Variants.none () Set.univ := fun t => by
  rw [bigSep_W0, bigSep_W0]
  exact dist_body_runs V c t

end Cert.Kernel.Hand

end
-- ==== Proof.K.Body1.lean ====
import proofs.«121024_j55929064128529_1_alg».proof.Proof.Gen.Kernel.Launch
import proofs.«121024_j55929064128529_1_alg».proof.Proof.Gen.Kernel.Skeleton
import proofs.«121024_j55929064128529_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«121024_j55929064128529_1_alg».proof.Proof.K.Defs

set_option maxRecDepth 16384

noncomputable section

/-! The body obligation of region 1. The body has one branch on the grid coordinates: at the first point it
resets both 1×1 accumulators to zero; at every point it loads the four 64×128 input blocks and adds the point's
partial sums to what each accumulator holds. So there are two control cases, each run once on generic whole staging
memrefs; what a run leaves in an accumulator's buffer is read back as the payload of its last, covering store. The
pipeline's schedule says what each buffer holds when the body is entered: an input's its block, an accumulator's
anything at the first point and what the point before left afterwards. -/

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The zero offset of a rank-2 rectangle, as the constant function. -/
theorem hz2 : (![0, 0] : Fin 2 → Nat) = fun _ => 0 := funext fun a => by fin_cases a <;> rfl

/-- The whole 1×1 rectangle both accumulators are loaded and stored through. -/
abbrev r11 : Rect S1x1 := Rect.unit (s := S1x1) ![0, 0] S1x1.size inb_S1x1_S1x1_0_0

/-- A store through the whole rectangle, last, covers the buffer whatever came before. -/
theorem cover_head (p : Vec F S1x1 .f32) (L : List (View.Piece (Elt F) S1x1 .f32)) (y : S1x1.Idx) :
    ∃ pc ∈ ((⟨r11, p⟩ : View.Piece (Elt F) S1x1 .f32) :: L), y ∈ pc.1.set := by
  obtain ⟨pc, hpc, hy⟩ := View.cover_of_tiled [(⟨r11, p⟩ : View.Piece (Elt F) S1x1 .f32)] S1x1.size (by rfl) y
  rw [List.mem_singleton] at hpc; subst hpc
  exact ⟨_, List.mem_cons_self, hy⟩

/-- The body's one branch condition, from the grid coordinates: all three are zero. -/
abbrev cond1 (i : grid1.Coords) : Prop :=
  (Scalar.cmpi .ne (Scalar.extui (Scalar.andi (Scalar.andi (Scalar.cmpi .eq (BitVec.ofNat 32 (i 0).val) 0#32)
    (Scalar.cmpi .eq (BitVec.ofNat 32 (i 1).val) 0#32)) (Scalar.cmpi .eq (BitVec.ofNat 32 (i 2).val) 0#32))) 0#32) = 1#1

/-- It holds at the first point only: decided over the grid's 128 points. -/
theorem hcond1 : ∀ t : Fin cfg1.N, cond1 (grid1.coords t) ↔ t.val = 0 :=
  (by decide +kernel : ∀ t : Fin grid1.N, cond1 (grid1.coords t) ↔ t.val = 0)

set_option maxHeartbeats 1000000 in
/-- The body where the condition fails, on whole staging memrefs: the inputs' at contents `x0 … x3`, the
    accumulators' at `p4`, `p5`. It runs to the continuation holding the inputs' as they were and each accumulator at
    the point's partial sum added to what it held: the one covering store's payload, whose loads read whole buffers. -/
theorem run_later (c : Dev nD) (E : Set ℕ) (i : grid1.Coords)
    (arg3 : Memref sig .tc .vmem S64x128 .f32) (harg3 : arg3.IsWhole) (arg4 : Memref sig .tc .vmem S64x128 .f32) (harg4 : arg4.IsWhole)
    (arg5 : Memref sig .tc .vmem S64x128 .f32) (harg5 : arg5.IsWhole) (arg6 : Memref sig .tc .vmem S64x128 .f32) (harg6 : arg6.IsWhole)
    (arg7 : Memref sig .tc .vmem S1x1 .f32) (harg7 : arg7.IsWhole) (arg8 : Memref sig .tc .vmem S1x1 .f32) (harg8 : arg8.IsWhole)
    (hc : ¬cond1 i) (x0 x1 x2 x3 : Vec F S64x128 .f32) (p4 p5 : Vec F S1x1 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare p4 ∗ owns (c : Thread nD τ) arg8 fullShare p5
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (k1_pay1 (k1_pay6 x0 x1 x2 x3) p4)
            ∗ owns (c : Thread nD τ) arg8 fullShare (k1_pay2 (k1_pay7 x2 x3) p5)) -∗ K ⟨⟩))
      ⊢ wp frame (wpE (defs₀ (F := F)) Variants.none c none) E
          (cc1__triplet_kernel i arg3 harg3 arg4 harg4 arg5 harg5 arg6 harg6 arg7 harg7 arg8 harg8) K := by
  simp only [cc1__triplet_kernel_eq_skeleton]; unfold cc1__triplet_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg3.eq_unread hf0; obtain rfl := harg4.eq_unread hf1
  obtain rfl := harg5.eq_unread hf2; obtain rfl := harg6.eq_unread hf3
  obtain rfl := harg7.eq_unread hf4; obtain rfl := harg8.eq_unread hf5
  sl_exec (disch := first | exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    rw [View.read_writes_eq_canon _ _ _ (cover_head _ _)]
    sl_unfold_words
    rw [View.canon_unit_zero hz2]
    simp only [View.readAt_eq_ld, harg3.read_unread, harg4.read_unread, harg5.read_unread, harg6.read_unread, harg7.read_unread,
      View.ld_unit_zero (S := S1x1) hz2, View.ld_unit_zero (S := S64x128) hz2]
  · iexists _; isplitr
    swap; · iexact H5
    ipureintro
    rw [View.read_writes_eq_canon _ _ _ (cover_head _ _)]
    sl_unfold_words
    rw [View.canon_unit_zero hz2]
    simp only [View.readAt_eq_ld, harg5.read_unread, harg6.read_unread, harg8.read_unread,
      View.ld_unit_zero (S := S1x1) hz2, View.ld_unit_zero (S := S64x128) hz2]

set_option maxHeartbeats 1000000 in
/-- The body where the condition holds, the accumulators' memrefs at anything: the reset value is stored, read back
    through the same whole rectangle, and the point's partial sum added to it; the later store covers the buffer. -/
theorem run_first (c : Dev nD) (E : Set ℕ) (i : grid1.Coords)
    (arg3 : Memref sig .tc .vmem S64x128 .f32) (harg3 : arg3.IsWhole) (arg4 : Memref sig .tc .vmem S64x128 .f32) (harg4 : arg4.IsWhole)
    (arg5 : Memref sig .tc .vmem S64x128 .f32) (harg5 : arg5.IsWhole) (arg6 : Memref sig .tc .vmem S64x128 .f32) (harg6 : arg6.IsWhole)
    (arg7 : Memref sig .tc .vmem S1x1 .f32) (harg7 : arg7.IsWhole) (arg8 : Memref sig .tc .vmem S1x1 .f32) (harg8 : arg8.IsWhole)
    (hc : cond1 i) (x0 x1 x2 x3 : Vec F S64x128 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d) ∗ (∃ d, owns (c : Thread nD τ) arg8 fullShare d)
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (k1_pay1 (k1_pay6 x0 x1 x2 x3) (k1_pay3 (F := F)))
            ∗ owns (c : Thread nD τ) arg8 fullShare (k1_pay2 (k1_pay7 x2 x3) (k1_pay4 (F := F)))) -∗ K ⟨⟩))
      ⊢ wp frame (wpE (defs₀ (F := F)) Variants.none c none) E
          (cc1__triplet_kernel i arg3 harg3 arg4 harg4 arg5 harg5 arg6 harg6 arg7 harg7 arg8 harg8) K := by
  simp only [cc1__triplet_kernel_eq_skeleton]; unfold cc1__triplet_kernel_skel
  simp only [k1_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  obtain rfl := harg3.eq_unread hf0; obtain rfl := harg4.eq_unread hf1
  obtain rfl := harg5.eq_unread hf2; obtain rfl := harg6.eq_unread hf3
  sl_exec (disch := first | exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    rw [View.read_writes_eq_canon _ _ _ (cover_head _ _)]
    sl_unfold_words
    rw [View.canon_cons_unit_zero (S := S1x1) hz2, View.readCov_unit_zero (S := S1x1) _ hz2]
    simp only [View.readAt_eq_ld, harg3.read_unread, harg4.read_unread, harg5.read_unread, harg6.read_unread,
      View.ld_unit_zero (S := S64x128) hz2]
  · iexists _; isplitr
    swap; · iexact H5
    ipureintro
    rw [View.read_writes_eq_canon _ _ _ (cover_head _ _)]
    sl_unfold_words
    rw [View.canon_cons_unit_zero (S := S1x1) hz2, View.readCov_unit_zero (S := S1x1) _ hz2]
    simp only [View.readAt_eq_ld, harg5.read_unread, harg6.read_unread,
      View.ld_unit_zero (S := S64x128) hz2]

variable (V : (c : Dev nD) → (b : Ref sig .tc) → Buf (Elt F) ((c : Thread nD τ).loc b))

/-! ## What the body finds in each staging buffer -/

/-! An input window's current staging buffer holds its block at every point, fetched there or not: between two
fetches the block index has not moved, and the body leaves the block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-! After the first point an accumulator's staging buffer holds what the point before left: it is written back
after the last point only, and its block index never moves. -/
theorem before1_4_later (c : Dev nD) (t : Fin cfg1.N) (h0 : t.val ≠ 0) (d) :
    (dat1 V c).before 4 t d = acc4 V c (t.val - 1) (Nat.lt_of_le_of_lt (Nat.sub_le _ _) t.isLt) := by
  have hN : t.val < 128 := lt_of_lt_of_eq t.isLt (show cfg1.N = 128 from N_1)
  rw [Dat.before_out_kept _ 4 rfl t h0
    (Bool.eq_false_iff.mpr fun h => by have := (flush1_4 _).mp h; dsimp only at this; omega)
    (fun _ => rfl) (fun _ _ => rfl)]
  exact after1_4 V c _
theorem before1_5_later (c : Dev nD) (t : Fin cfg1.N) (h0 : t.val ≠ 0) (d) :
    (dat1 V c).before 5 t d = acc5 V c (t.val - 1) (Nat.lt_of_le_of_lt (Nat.sub_le _ _) t.isLt) := by
  have hN : t.val < 128 := lt_of_lt_of_eq t.isLt (show cfg1.N = 128 from N_1)
  rw [Dat.before_out_kept _ 5 rfl t h0
    (Bool.eq_false_iff.mpr fun h => by have := (flush1_5 _).mp h; dsimp only at this; omega)
    (fun _ => rfl) (fun _ _ => rfl)]
  exact after1_5 V c _

/-! ## The body obligation, at a generic point -/

/-- What the body is called with at point `t`: the invariant, what the core owes, each window's current buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What it returns: the same, each buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 800000 in
/-- The body at any point. The inputs' buffers hold their blocks. At the first point the condition holds and the
    accumulators, found at anything, end at the point's partial sums added to the reset value; at a later point it
    fails and they end at the partial sums added to what the point before left. The invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  by_cases h0 : t.val = 0
  · rw [acc4_zero V c t h0, acc5_zero V c t h0]
    unfold part4 part5
    iintro ⟨HΦ, Ho, ⟨%d0, H0⟩, ⟨%d1, H1⟩, ⟨%d2, H2⟩, ⟨%d3, H3⟩, ⟨%d4, H4⟩, ⟨%d5, H5⟩⟩
    iapply (run_first c Set.univ (grid1.coords t) _ _ _ _ _ _ _ _ _ _ _ _ ((hcond1 t).mpr h0)
      (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [acc4_succ V c t h0, acc5_succ V c t h0]
    simp only [before1_4_later V c t h0, before1_5_later V c t h0]
    unfold part4 part5
    iintro ⟨HΦ, Ho, ⟨%d0, H0⟩, ⟨%d1, H1⟩, ⟨%d2, H2⟩, ⟨%d3, H3⟩, ⟨%d4, H4⟩, ⟨%d5, H5⟩⟩
    iapply (run_later c Set.univ (grid1.coords t) _ _ _ _ _ _ _ _ _ _ _ _ (fun h => h0 ((hcond1 t).mp h))
      (iblk1 V c 0 t) (iblk1 V c 1 t) (iblk1 V c 2 t) (iblk1 V c 3 t)
      (acc4 V c (t.val - 1) (Nat.lt_of_le_of_lt (Nat.sub_le _ _) t.isLt))
      (acc5 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The pipeline library's body obligation for region 1, at every point, on any core. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
import proofs.«121024_j55929064128529_1_alg».proof.Proof.Gen.Kernel.Launch
import proofs.«121024_j55929064128529_1_alg».proof.Proof.Gen.Kernel.Skeleton
import proofs.«121024_j55929064128529_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«121024_j55929064128529_1_alg».proof.Proof.K.Defs
import proofs.«121024_j55929064128529_1_alg».proof.Proof.K.Bounds
import proofs.«121024_j55929064128529_1_alg».proof.Proof.K.Body0
import proofs.«121024_j55929064128529_1_alg».proof.Proof.K.Body1
import proofs.«121024_j55929064128529_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## Region 0 as a segment -/

set_option backward.isDefEq.respectTransparency.types false in
/-- Region 0: entered from every unscoped buffer at `W1`, left at `W2`. Its two arrays are distinct buffers: they are split
    out of the unscoped buffers at entry and put back at exit; the generator register goes through the class invariant. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1: one array behind two windows

The distance matrix reaches region 1 through windows 0 and 1. The region holds that one buffer's full share as two halves,
one per window; the other four windows' arrays are distinct buffers held whole. -/

/-- The distinct buffers behind region 1's six windows. -/
theorem arrImg1 : Finset.univ.image (Pipeline.arrRef spec1)
    = ([main_v16, main_v12, main_v15, main_v17_0, main_v17_1] : List (Ref sig .tc)).toFinset := by decide

/-- Those buffers, each whole at contents `V`, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v16) ↦{fullShare} V main_v16) ∗ (((c : Thread nD τ).loc main_v12) ↦{fullShare} V main_v12)
          ∗ (((c : Thread nD τ).loc main_v15) ↦{fullShare} V main_v15) ∗ (((c : Thread nD τ).loc main_v17_0) ↦{fullShare} V main_v17_0)
          ∗ (((c : Thread nD τ).loc main_v17_1) ↦{fullShare} V main_v17_1)) := by
  unfold Pipeline.arrBufs
  rw [bigSep_eq_bigSepL_of_eq _ arrImg1 (by decide)]
  rfl

section Shares
variable (V : (c : Dev nD) → (b : Ref sig .tc) → Buf (Elt F) ((c : Thread nD τ).loc b))
theorem share1_0 (c : Dev nD) : (dat1 V c).share 0 = (fullShare : PosShare TreeShare).left := rfl
theorem share1_1 (c : Dev nD) : (dat1 V c).share 1 = (fullShare : PosShare TreeShare).right := rfl
theorem share1_2 (c : Dev nD) : (dat1 V c).share 2 = fullShare := rfl
theorem share1_3 (c : Dev nD) : (dat1 V c).share 3 = fullShare := rfl
theorem share1_4 (c : Dev nD) : (dat1 V c).share 4 = fullShare := rfl
theorem share1_5 (c : Dev nD) : (dat1 V c).share 5 = fullShare := rfl

/-- The proof data's arrays, window by window, each at its share. -/
theorem arrays1_eq (c : Dev nD)
    (G : (w : Fin cfg1.W) → Buf (Elt F) ((cfg1.win w).arr.view.loc (c : Thread nD τ))) :
    ((dat1 V c).arrays G : sProp 𝕄)
      = iprop((((c : Thread nD τ).loc main_v16) ↦{(fullShare : PosShare TreeShare).left} G 0) ∗ (((c : Thread nD τ).loc main_v16) ↦{(fullShare : PosShare TreeShare).right} G 1)
          ∗ (((c : Thread nD τ).loc main_v12) ↦{fullShare} G 2) ∗ (((c : Thread nD τ).loc main_v15) ↦{fullShare} G 3)
          ∗ (((c : Thread nD τ).loc main_v17_0) ↦{fullShare} G 4) ∗ (((c : Thread nD τ).loc main_v17_1) ↦{fullShare} G 5)) := by
  unfold Dat.arrays
  rw [bigSep_W1, (arr_whole1 0).set_eq_univ, (arr_whole1 2).set_eq_univ, (arr_whole1 3).set_eq_univ,
    (arr_whole1 4).set_eq_univ, (arr_whole1 5).set_eq_univ, share1_0, share1_1, share1_2, share1_3, share1_4, share1_5]
end Shares

/-- ENTRY of region 1: every unscoped buffer at `W2` is the region's arrays at their entry contents — the distance matrix's
    full share cut in two halves — and the rest. -/
theorem split1 (c : Dev nD) :
    StableHlo.held (c : Thread nD τ) (Pipeline.ucRefs τ sig) (W2 m ρ c)
      ⊢ (iprop((dat1 (V2 m ρ) c).arrays ((dat1 (V2 m ρ) c).arrAt · 0)
          ∗ Pipeline.unscopedRest (Ix := Unit) (Name := ℕ) (U := UR sig nD τ) (Lvl := ℕ) spec1 c (V2 m ρ c)) : sProp 𝕄) := by
  rw [← Pipeline.unscopedBufs_held (Ix := Unit) (Name := ℕ) (U := UR sig nD τ) (Lvl := ℕ) c (W2 m ρ c),
    Pipeline.unscopedBufs_split₀ cfgs 1 winFacts₀1.arr_unscoped c]
  show (iprop(Pipeline.arrBufs (Ix := Unit) (Name := ℕ) (U := UR sig nD τ) (Lvl := ℕ) spec1 c (V2 m ρ c)
      ∗ Pipeline.unscopedRest (Ix := Unit) (Name := ℕ) (U := UR sig nD τ) (Lvl := ℕ) spec1 c (V2 m ρ c)) : sProp 𝕄) ⊢ _
  rw [arrBufs1_eq, arrays1_eq]
  iintro ⟨⟨Hd, Hp, Hn, Hs, Hk⟩, Hrest⟩
  ihave Hd := (pointsTo_share (PosShare.mem_left_op_right fullShare)).1 $$ Hd
  icases Hd with ⟨Hl, Hr⟩
  isplitr [Hrest]
  · isplitl [Hl]; · iexact Hl
    isplitl [Hr]; · iexact Hr
    isplitl [Hp]; · iexact Hp
    isplitl [Hn]; · iexact Hn
    isplitl [Hs]; · iexact Hs
    iexact Hk
  · iexact Hrest

/-- EXIT of region 1: its arrays at their final contents — the inputs as entered, the two halves of the distance matrix
    joined again, the two results at what the last write-backs leave — and the rest are every unscoped buffer at `W3`. -/
theorem join1 (c : Dev nD) :
    (iprop((dat1 (V2 m ρ) c).arrays ((dat1 (V2 m ρ) c).arrAt · cfg1.N)
        ∗ Pipeline.unscopedRest (Ix := Unit) (Name := ℕ) (U := UR sig nD τ) (Lvl := ℕ) spec1 c (V2 m ρ c)) : sProp 𝕄)
      ⊢ StableHlo.held (c : Thread nD τ) (Pipeline.ucRefs τ sig) (W3 m ρ c) := by
  rw [← Pipeline.unscopedBufs_held (Ix := Unit) (Name := ℕ) (U := UR sig nD τ) (Lvl := ℕ) c (W3 m ρ c),
    Pipeline.unscopedBufs_split₀ cfgs 1 winFacts₀1.arr_unscoped c]
  show _ ⊢ (iprop(Pipeline.arrBufs (Ix := Unit) (Name := ℕ) (U := UR sig nD τ) (Lvl := ℕ) spec1 c (V3 m ρ c)
      ∗ Pipeline.unscopedRest (Ix := Unit) (Name := ℕ) (U := UR sig nD τ) (Lvl := ℕ) spec1 c (V3 m ρ c)) : sProp 𝕄)
  have hrest : (Pipeline.unscopedRest (Ix := Unit) (Name := ℕ) (U := UR sig nD τ) (Lvl := ℕ) spec1 c (V3 m ρ c) : sProp 𝕄)
      = Pipeline.unscopedRest (Ix := Unit) (Name := ℕ) (U := UR sig nD τ) (Lvl := ℕ) spec1 c (V2 m ρ c) := by
    unfold Pipeline.unscopedRest
    refine bigSep_congr fun b hb => ?_
    have hb' := (Finset.mem_sdiff.mp hb).2
    rw [arrImg1] at hb'
    have h0 : b ≠ main_v17_0 := fun e => hb' (by rw [e]; decide)
    have h1 : b ≠ main_v17_1 := fun e => hb' (by rw [e]; decide)
    rw [show V3 m ρ c b = V2 m ρ c b from W3_of_ne m ρ c b h0 h1]
  have e0 : (dat1 (V2 m ρ) c).arrAt 0 cfg1.N = V3 m ρ c main_v16 :=
    ((dat1 (V2 m ρ) c).arrAt_in 0 rfl _).trans ((A_eq1 (V2 m ρ) c 0).trans (W3_of_ne m ρ c main_v16 (by decide) (by decide)).symm)
  have e1 : (dat1 (V2 m ρ) c).arrAt 1 cfg1.N = V3 m ρ c main_v16 :=
    ((dat1 (V2 m ρ) c).arrAt_in 1 rfl _).trans ((A_eq1 (V2 m ρ) c 1).trans (W3_of_ne m ρ c main_v16 (by decide) (by decide)).symm)
  have e2 : (dat1 (V2 m ρ) c).arrAt 2 cfg1.N = V3 m ρ c main_v12 :=
    ((dat1 (V2 m ρ) c).arrAt_in 2 rfl _).trans ((A_eq1 (V2 m ρ) c 2).trans (W3_of_ne m ρ c main_v12 (by decide) (by decide)).symm)
  have e3 : (dat1 (V2 m ρ) c).arrAt 3 cfg1.N = V3 m ρ c main_v15 :=
    ((dat1 (V2 m ρ) c).arrAt_in 3 rfl _).trans ((A_eq1 (V2 m ρ) c 3).trans (W3_of_ne m ρ c main_v15 (by decide) (by decide)).symm)
  have e4 : (dat1 (V2 m ρ) c).arrAt 4 cfg1.N = V3 m ρ c main_v17_0 := (W3_sum m ρ c).symm
  have e5 : (dat1 (V2 m ρ) c).arrAt 5 cfg1.N = V3 m ρ c main_v17_1 := (W3_cnt m ρ c).symm
  rw [hrest, arrBufs1_eq, arrays1_eq, e0, e1, e2, e3, e4, e5]
  iintro ⟨⟨Hl, Hr, Hp, Hn, Hs, Hk⟩, Hrest⟩
  ihave Hd := (pointsTo_share (PosShare.mem_left_op_right fullShare)).2 $$ [Hl Hr]
  · isplitl [Hl] <;> iassumption
  isplitr [Hrest]
  · isplitl [Hd]; · iexact Hd
    isplitl [Hp]; · iexact Hp
    isplitl [Hn]; · iexact Hn
    isplitl [Hs]; · iexact Hs
    iexact Hk
  · iexact Hrest

set_option backward.isDefEq.respectTransparency.types false in
/-- Region 1: entered from every unscoped buffer at `W2`, left at `W3`. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    iintro ⟨⟨Hub, Hp, HO⟩, -, -⟩
    ihave H := split1 m ρ c $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (join1 m ρ c)
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

/-- The last thread state without the `owes`: every unscoped buffer at the last boundary's contents, the generator register. -/
abbrev Tₙ (c : Dev nD) : sProp 𝕄 := iprop(StableHlo.held (c : Thread nD τ) (Pipeline.ucRefs τ sig) (W4 m ρ c) ∗ ∃ r, prngReg c r)

/-- @main's four segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, faulting nowhere, and
    every final state holds every unscoped buffer of every core at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show (iprop(StableHlo.held (c : Thread nD τ) (Pipeline.ucRefs τ sig) (W4 m ρ c) ∗ R c) : sProp 𝕄) ⊢ _
      iintro ⟨Hh, ⟨Hp, HO⟩⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## The arguments end as launched -/

theorem W4_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := W3_of_ne m ρ c main_arg0 (by decide) (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl
theorem W4_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := W3_of_ne m ρ c main_arg1 (by decide) (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

/-- THE FRAME: @main runs to the end, faults nowhere, and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W4_arg0 m ρ c), (h c _ (mem_uc main_arg1 (by decide))).trans (W4_arg1 m ρ c)⟩)
    (run_all m ρ)

end Cert.Kernel.Hand

end
-- ==== Proof.KI.Defs.lean ====
import proofs.«121024_j55929064128529_1_alg».proof.Proof.Gen.KernelIdeal.Launch
import proofs.«121024_j55929064128529_1_alg».proof.Proof.Gen.KernelIdeal.Skeleton
import proofs.«121024_j55929064128529_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! Proof data of the two pipelines, at a parameter `V`: the TensorCore's buffer contents when a region is entered.

Region 0 runs once on whole 512×512 blocks: its output buffer ends at the body's one stored value.
Region 1 visits 128 points; its two 1×1 outputs stay in their staging buffers from point to point and are
accumulators: at the first point the body resets them and adds the point's partial sums, at every later point it
adds the point's partial sums to what the point before left. -/

variable (V : (c : Dev nD) → (b : Ref sig .tc) → Buf (Elt F) ((c : Thread nD τ).loc b))

/-! ## Region 0 -/

/-- Window `w`'s block of region 0 at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole 512×512 rectangle the body of region 0 loads and stores through. -/
abbrev rect0 : Rect S512x512 := Rect.unit (s := S512x512) ![0, 0] S512x512.size inb_S512x512_S512x512_0_0

/-- What region 0's body leaves in the output's staging buffer: the distance payload of the loaded block. -/
def out0_1 (x0 : Vec F S512x512 .f32) : Vec F S512x512 .f32 :=
  View.canon [⟨rect0, k0_pay1 (View.ld x0 rect0)⟩]

/-- Proof data of pipeline 0. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-! ## Region 1 -/

/-- Window `w`'s block of region 1 at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The point's partial sum of the masked hinge terms, as a 1×1 vector: the body's pure arithmetic on the four input blocks. -/
def part4 (c : Dev nD) (t : Fin cfg1.N) : Vec F S1x1 .f32 :=
  k1_pay6 (iblk1 V c 0 t) (iblk1 V c 1 t) (iblk1 V c 2 t) (iblk1 V c 3 t)
/-- The point's partial row counts of the mask (64 rows), before the last lane reduction. -/
def part5 (c : Dev nD) (t : Fin cfg1.N) : Vec F S64 .f32 :=
  k1_pay7 (iblk1 V c 2 t) (iblk1 V c 3 t)

/-- The running sum after the body at position `n`: reset to zero at the first point, then each point's partial sum added. -/
def acc4 (c : Dev nD) : (n : ℕ) → n < cfg1.N → Vec F S1x1 .f32
  | 0, hn => k1_pay1 (part4 V c ⟨0, hn⟩) (k1_pay3 (F := F))
  | n + 1, hn => k1_pay1 (part4 V c ⟨n + 1, hn⟩) (acc4 c n (Nat.lt_of_succ_lt hn))
/-- The running count after the body at position `n`, likewise. -/
def acc5 (c : Dev nD) : (n : ℕ) → n < cfg1.N → Vec F S1x1 .f32
  | 0, hn => k1_pay2 (part5 V c ⟨0, hn⟩) (k1_pay4 (F := F))
  | n + 1, hn => k1_pay2 (part5 V c ⟨n + 1, hn⟩) (acc5 c n (Nat.lt_of_succ_lt hn))

theorem acc4_zero (c : Dev nD) (t : Fin cfg1.N) (h : t.val = 0) :
    acc4 V c t.val t.isLt = k1_pay1 (part4 V c t) (k1_pay3 (F := F)) := by
  obtain ⟨n, hn⟩ := t; cases n with
  | zero => rfl
  | succ n => exact absurd h (Nat.succ_ne_zero n)
theorem acc4_succ (c : Dev nD) (t : Fin cfg1.N) (h : t.val ≠ 0) :
    acc4 V c t.val t.isLt = k1_pay1 (part4 V c t) (acc4 V c (t.val - 1) (Nat.lt_of_le_of_lt (Nat.sub_le _ _) t.isLt)) := by
  obtain ⟨n, hn⟩ := t; cases n with
  | zero => exact absurd rfl h
  | succ n => rfl
theorem acc5_zero (c : Dev nD) (t : Fin cfg1.N) (h : t.val = 0) :
    acc5 V c t.val t.isLt = k1_pay2 (part5 V c t) (k1_pay4 (F := F)) := by
  obtain ⟨n, hn⟩ := t; cases n with
  | zero => rfl
  | succ n => exact absurd h (Nat.succ_ne_zero n)
theorem acc5_succ (c : Dev nD) (t : Fin cfg1.N) (h : t.val ≠ 0) :
    acc5 V c t.val t.isLt = k1_pay2 (part5 V c t) (acc5 V c (t.val - 1) (Nat.lt_of_le_of_lt (Nat.sub_le _ _) t.isLt)) := by
  obtain ⟨n, hn⟩ := t; cases n with
  | zero => exact absurd rfl h
  | succ n => rfl

/-- Proof data of pipeline 1. Windows 0 and 1 read ONE array (the distance matrix): each holds half of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => acc4 V c t.val t.isLt
    | ⟨5, _⟩ => acc5 V c t.val t.isLt
  Φ _ := Pipeline.ΦA spec1 c
  q w := match w with
    | ⟨0, _⟩ => (fullShare : PosShare TreeShare).left
    | ⟨1, _⟩ => (fullShare : PosShare TreeShare).right
    | _ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = acc4 V c t.val t.isLt := by dsimp only [dat1]
theorem after1_5 (c : Dev nD) (t : Fin cfg1.N) : (dat1 V c).after 5 t = acc5 V c t.val t.isLt := by dsimp only [dat1]

end Cert.KernelIdeal.Hand

end
-- ==== Proof.KI.Bounds.lean ====
import proofs.«121024_j55929064128529_1_alg».proof.Proof.Gen.KernelIdeal.Launch
import proofs.«121024_j55929064128529_1_alg».proof.Proof.Gen.KernelIdeal.Skeleton
import proofs.«121024_j55929064128529_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«121024_j55929064128529_1_alg».proof.Proof.KI.Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary of @main

@main is: 17 host operations (the two label masks), pallas_call 0 (the distance matrix), pallas_call 1 (the masked sum and
the count, accumulated over 128 grid points), 5 host operations (the count clamped at one, the quotient). -/

/-- Core `c`'s buffers at launch. -/
abbrev W0 : Dev nD → Valuation τ sig (Elt F) := fun c b => (s₀ m ρ).mem ((c : Dev nD), b)
/-- After the first host stretch: region 0's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its output array at what its one write-back leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: the two 1×1 results at what the write-backs after the last point leave; the inputs (the distance
    matrix, read through two windows, and the two masks) as entered. -/
def W3 (c : Dev nD) : Valuation τ sig (Elt F) :=
  Function.update (Function.update (W2 m ρ c) (Proc.devRef .tc main_v17_0) ((dat1 (V2 m ρ) c).arrAt 4 cfg1.N))
    (Proc.devRef .tc main_v17_1) ((dat1 (V2 m ρ) c).arrAt 5 cfg1.N)
abbrev V3 : (c : Dev nD) → (b : Ref sig .tc) → Buf (Elt F) ((c : Thread nD τ).loc b) := fun c b => W3 m ρ c b
theorem W3_sum (c : Dev nD) : W3 m ρ c (Proc.devRef .tc main_v17_0) = (dat1 (V2 m ρ) c).arrAt 4 cfg1.N := by
  unfold W3
  rw [Function.update_of_ne (StableHlo.devRef_ne_of_ne (by decide) : (Proc.devRef .tc main_v17_0 : DevRef τ sig) ≠ Proc.devRef .tc main_v17_1),
    Function.update_self]
theorem W3_cnt (c : Dev nD) : W3 m ρ c (Proc.devRef .tc main_v17_1) = (dat1 (V2 m ρ) c).arrAt 5 cfg1.N := by
  unfold W3; rw [Function.update_self]
theorem W3_of_ne (c : Dev nD) (b : Ref sig .tc) (h0 : b ≠ main_v17_0) (h1 : b ≠ main_v17_1) :
    W3 m ρ c (Proc.devRef .tc b) = W2 m ρ c (Proc.devRef .tc b) := by
  unfold W3
  rw [Function.update_of_ne (StableHlo.devRef_ne_of_ne h1 : (Proc.devRef .tc b : DevRef τ sig) ≠ Proc.devRef .tc main_v17_1),
    Function.update_of_ne (StableHlo.devRef_ne_of_ne h0 : (Proc.devRef .tc b : DevRef τ sig) ≠ Proc.devRef .tc main_v17_0)]
/-- After the last host stretch: the return. -/
abbrev W4 : Dev nD → Valuation τ sig (Elt F) := fun c => StableHlo.after hostOps2 (W3 m ρ c)

end Cert.KernelIdeal.Hand

end
-- ==== Proof.KI.Body0.lean ====
import proofs.«121024_j55929064128529_1_alg».proof.Proof.Gen.KernelIdeal.Launch
import proofs.«121024_j55929064128529_1_alg».proof.Proof.Gen.KernelIdeal.Skeleton
import proofs.«121024_j55929064128529_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«121024_j55929064128529_1_alg».proof.Proof.KI.Defs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input block in its staging buffer -/

/-- Window 0 is an input, uncut and never idle, and the body leaves its block where it found it; so at every point
    its current staging buffer holds the 512×512 array's block there, whether the point fetched it or not. -/
theorem before0_in (c : Dev nD) (t : Fin cfg0.N) (d) : (dat0 V c).before 0 t d = iblk0 V c 0 t := by
  have hkeep : ∀ t, (cfg0.win 0).cut (cfg0.grid.coords t) ((dat0 V c).after 0 t) = (dat0 V c).blockOf 0 t := fun t => by
    rw [after0_0]; unfold Dat.blockOf iblk0; rw [A_eq0]; try rfl
  rw [(dat0 V c).before_in_eq_fetched 0 rfl (fun _ => rfl) (fun _ _ _ => rfl) hkeep t d]
  unfold Dat.fetched Dat.blockOf iblk0; rw [A_eq0]; try rfl

/-! ## The one store covers the output buffer -/

/-- The body stores once, through the whole 512×512 rectangle: every index of the output buffer lies under that store. -/
theorem store_covers0 (p : Vec F S512x512 .f32) (y : S512x512.Idx) :
    ∃ pc ∈ ([⟨rect0, p⟩] : List (View.Piece (Elt F) S512x512 .f32)), y ∈ pc.1.set :=
  View.cover_of_tiled [⟨rect0, p⟩] S512x512.size (by rfl) y

/-! ## The distance kernel on whole buffers -/

set_option maxHeartbeats 1000000 in
/-- The distance kernel on two whole staging memrefs, the input's reading `x0` and the output's holding anything: it
    loads the input whole, loads the output whole (a value it never uses), and stores the distance payload of the
    loaded input whole into the output. It runs to a continuation that holds the input as it was and the output at
    `out0_1 x0`: a read of the buffer after a covering store is the store's canonical contents. -/
theorem dist_kernel_runs (c : Dev nD) (E : Set ℕ) (i : grid0.Coords)
    (arg1 : Memref sig .tc .vmem S512x512 .f32) (harg1 : arg1.IsWhole)
    (arg2 : Memref sig .tc .vmem S512x512 .f32) (harg2 : arg2.IsWhole)
    (x0 : Vec F S512x512 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__dist_kernel i arg1 harg1 arg2 harg2) K := by
  simp only [cc0__dist_kernel_eq_skeleton]; unfold cc0__dist_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (store_covers0 _)

/-! ## The body at a point of the grid -/

/-- What the pipeline hands the body at point `t`: the invariant, the core's debts, and each window's current staging
    buffer whole at what the schedule left in it. -/
def distPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- What the body hands back: the same invariant and debts, the input's buffer at its block, the output's at the
    distance payload of that block. -/
def distPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds its block (`before0_in`), so the kernel's run applies at that block;
    the invariant and the debts do not depend on the position and pass through untouched. -/
theorem dist_body_runs (c : Dev nD) (t : Fin cfg0.N) :
    distPre V c t ⊢ wp frame (wpE (defs₀ (F := F)) Variants.none c none) Set.univ (bodyAt0 t) (fun _ => distPost V c t) := by
  unfold distPre distPost bodyAt0
  simp only [before0_in]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, Hin⟩, ⟨%d1, Hout⟩⟩
  iapply (dist_kernel_runs c Set.univ _ _ _ _ _ (iblk0 V c 0 t) _)
  isplitl [Hin]; · iexact Hin
  isplitl [Hout]; · iexists _; iexact Hout
  iintro ⟨Hin, Hout⟩
  isplitl [HΦ]; · iexact HΦ
  isplitl [Ho]; · iexact Ho
  isplitl [Hin]; · iexact Hin
  iexact Hout

/-- The pipeline library's body obligation for region 0, at every point, on any core. -/
theorem body_obligation0 (c : Dev nD) : BodyObligation (dat0 (F := F) V c) (defs₀ (F := F)) Variants.none () Set.univ := fun t => by
  rw [bigSep_W0, bigSep_W0]
  exact dist_body_runs V c t

end Cert.KernelIdeal.Hand

end
-- ==== Proof.KI.Body1.lean ====
import proofs.«121024_j55929064128529_1_alg».proof.Proof.Gen.KernelIdeal.Launch
import proofs.«121024_j55929064128529_1_alg».proof.Proof.Gen.KernelIdeal.Skeleton
import proofs.«121024_j55929064128529_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«121024_j55929064128529_1_alg».proof.Proof.KI.Defs

set_option maxRecDepth 16384

noncomputable section

/-! The body obligation of region 1. The body has one branch on the grid coordinates: at the first point it
resets both 1×1 accumulators to zero; at every point it loads the four 64×128 input blocks and adds the point's
partial sums to what each accumulator holds. So there are two control cases, each run once on generic whole staging
memrefs; what a run leaves in an accumulator's buffer is read back as the payload of its last, covering store. The
pipeline's schedule says what each buffer holds when the body is entered: an input's its block, an accumulator's
anything at the first point and what the point before left afterwards. -/

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offset of a rank-2 rectangle, as the constant function. -/
theorem hz2 : (![0, 0] : Fin 2 → Nat) = fun _ => 0 := funext fun a => by fin_cases a <;> rfl

/-- The whole 1×1 rectangle both accumulators are loaded and stored through. -/
abbrev r11 : Rect S1x1 := Rect.unit (s := S1x1) ![0, 0] S1x1.size inb_S1x1_S1x1_0_0

/-- A store through the whole rectangle, last, covers the buffer whatever came before. -/
theorem cover_head (p : Vec F S1x1 .f32) (L : List (View.Piece (Elt F) S1x1 .f32)) (y : S1x1.Idx) :
    ∃ pc ∈ ((⟨r11, p⟩ : View.Piece (Elt F) S1x1 .f32) :: L), y ∈ pc.1.set := by
  obtain ⟨pc, hpc, hy⟩ := View.cover_of_tiled [(⟨r11, p⟩ : View.Piece (Elt F) S1x1 .f32)] S1x1.size (by rfl) y
  rw [List.mem_singleton] at hpc; subst hpc
  exact ⟨_, List.mem_cons_self, hy⟩

/-- The body's one branch condition, from the grid coordinates: all three are zero. -/
abbrev cond1 (i : grid1.Coords) : Prop :=
  (Scalar.cmpi .ne (Scalar.extui (Scalar.andi (Scalar.andi (Scalar.cmpi .eq (BitVec.ofNat 32 (i 0).val) 0#32)
    (Scalar.cmpi .eq (BitVec.ofNat 32 (i 1).val) 0#32)) (Scalar.cmpi .eq (BitVec.ofNat 32 (i 2).val) 0#32))) 0#32) = 1#1

/-- It holds at the first point only: decided over the grid's 128 points. -/
theorem hcond1 : ∀ t : Fin cfg1.N, cond1 (grid1.coords t) ↔ t.val = 0 :=
  (by decide +kernel : ∀ t : Fin grid1.N, cond1 (grid1.coords t) ↔ t.val = 0)

set_option maxHeartbeats 1000000 in
/-- The body where the condition fails, on whole staging memrefs: the inputs' at contents `x0 … x3`, the
    accumulators' at `p4`, `p5`. It runs to the continuation holding the inputs' as they were and each accumulator at
    the point's partial sum added to what it held: the one covering store's payload, whose loads read whole buffers. -/
theorem run_later (c : Dev nD) (E : Set ℕ) (i : grid1.Coords)
    (arg3 : Memref sig .tc .vmem S64x128 .f32) (harg3 : arg3.IsWhole) (arg4 : Memref sig .tc .vmem S64x128 .f32) (harg4 : arg4.IsWhole)
    (arg5 : Memref sig .tc .vmem S64x128 .f32) (harg5 : arg5.IsWhole) (arg6 : Memref sig .tc .vmem S64x128 .f32) (harg6 : arg6.IsWhole)
    (arg7 : Memref sig .tc .vmem S1x1 .f32) (harg7 : arg7.IsWhole) (arg8 : Memref sig .tc .vmem S1x1 .f32) (harg8 : arg8.IsWhole)
    (hc : ¬cond1 i) (x0 x1 x2 x3 : Vec F S64x128 .f32) (p4 p5 : Vec F S1x1 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ owns (c : Thread nD τ) arg7 fullShare p4 ∗ owns (c : Thread nD τ) arg8 fullShare p5
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (k1_pay1 (k1_pay6 x0 x1 x2 x3) p4)
            ∗ owns (c : Thread nD τ) arg8 fullShare (k1_pay2 (k1_pay7 x2 x3) p5)) -∗ K ⟨⟩))
      ⊢ wp frame (wpE (defs₀ (F := F)) Variants.none c none) E
          (cc1__triplet_kernel i arg3 harg3 arg4 harg4 arg5 harg5 arg6 harg6 arg7 harg7 arg8 harg8) K := by
  simp only [cc1__triplet_kernel_eq_skeleton]; unfold cc1__triplet_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg3.eq_unread hf0; obtain rfl := harg4.eq_unread hf1
  obtain rfl := harg5.eq_unread hf2; obtain rfl := harg6.eq_unread hf3
  obtain rfl := harg7.eq_unread hf4; obtain rfl := harg8.eq_unread hf5
  sl_exec (disch := first | exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    rw [View.read_writes_eq_canon _ _ _ (cover_head _ _)]
    sl_unfold_words
    rw [View.canon_unit_zero hz2]
    simp only [View.readAt_eq_ld, harg3.read_unread, harg4.read_unread, harg5.read_unread, harg6.read_unread, harg7.read_unread,
      View.ld_unit_zero (S := S1x1) hz2, View.ld_unit_zero (S := S64x128) hz2]
  · iexists _; isplitr
    swap; · iexact H5
    ipureintro
    rw [View.read_writes_eq_canon _ _ _ (cover_head _ _)]
    sl_unfold_words
    rw [View.canon_unit_zero hz2]
    simp only [View.readAt_eq_ld, harg5.read_unread, harg6.read_unread, harg8.read_unread,
      View.ld_unit_zero (S := S1x1) hz2, View.ld_unit_zero (S := S64x128) hz2]

set_option maxHeartbeats 1000000 in
/-- The body where the condition holds, the accumulators' memrefs at anything: the reset value is stored, read back
    through the same whole rectangle, and the point's partial sum added to it; the later store covers the buffer. -/
theorem run_first (c : Dev nD) (E : Set ℕ) (i : grid1.Coords)
    (arg3 : Memref sig .tc .vmem S64x128 .f32) (harg3 : arg3.IsWhole) (arg4 : Memref sig .tc .vmem S64x128 .f32) (harg4 : arg4.IsWhole)
    (arg5 : Memref sig .tc .vmem S64x128 .f32) (harg5 : arg5.IsWhole) (arg6 : Memref sig .tc .vmem S64x128 .f32) (harg6 : arg6.IsWhole)
    (arg7 : Memref sig .tc .vmem S1x1 .f32) (harg7 : arg7.IsWhole) (arg8 : Memref sig .tc .vmem S1x1 .f32) (harg8 : arg8.IsWhole)
    (hc : cond1 i) (x0 x1 x2 x3 : Vec F S64x128 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare x3
        ∗ (∃ d, owns (c : Thread nD τ) arg7 fullShare d) ∗ (∃ d, owns (c : Thread nD τ) arg8 fullShare d)
        ∗ (iprop(owns (c : Thread nD τ) arg3 fullShare x0 ∗ owns (c : Thread nD τ) arg4 fullShare x1
            ∗ owns (c : Thread nD τ) arg5 fullShare x2 ∗ owns (c : Thread nD τ) arg6 fullShare x3
            ∗ owns (c : Thread nD τ) arg7 fullShare (k1_pay1 (k1_pay6 x0 x1 x2 x3) (k1_pay3 (F := F)))
            ∗ owns (c : Thread nD τ) arg8 fullShare (k1_pay2 (k1_pay7 x2 x3) (k1_pay4 (F := F)))) -∗ K ⟨⟩))
      ⊢ wp frame (wpE (defs₀ (F := F)) Variants.none c none) E
          (cc1__triplet_kernel i arg3 harg3 arg4 harg4 arg5 harg5 arg6 harg6 arg7 harg7 arg8 harg8) K := by
  simp only [cc1__triplet_kernel_eq_skeleton]; unfold cc1__triplet_kernel_skel
  simp only [k1_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  obtain rfl := harg3.eq_unread hf0; obtain rfl := harg4.eq_unread hf1
  obtain rfl := harg5.eq_unread hf2; obtain rfl := harg6.eq_unread hf3
  sl_exec (disch := first | exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    rw [View.read_writes_eq_canon _ _ _ (cover_head _ _)]
    sl_unfold_words
    rw [View.canon_cons_unit_zero (S := S1x1) hz2, View.readCov_unit_zero (S := S1x1) _ hz2]
    simp only [View.readAt_eq_ld, harg3.read_unread, harg4.read_unread, harg5.read_unread, harg6.read_unread,
      View.ld_unit_zero (S := S64x128) hz2]
  · iexists _; isplitr
    swap; · iexact H5
    ipureintro
    rw [View.read_writes_eq_canon _ _ _ (cover_head _ _)]
    sl_unfold_words
    rw [View.canon_cons_unit_zero (S := S1x1) hz2, View.readCov_unit_zero (S := S1x1) _ hz2]
    simp only [View.readAt_eq_ld, harg5.read_unread, harg6.read_unread,
      View.ld_unit_zero (S := S64x128) hz2]

variable (V : (c : Dev nD) → (b : Ref sig .tc) → Buf (Elt F) ((c : Thread nD τ).loc b))

/-! ## What the body finds in each staging buffer -/

/-! An input window's current staging buffer holds its block at every point, fetched there or not: between two
fetches the block index has not moved, and the body leaves the block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-! After the first point an accumulator's staging buffer holds what the point before left: it is written back
after the last point only, and its block index never moves. -/
theorem before1_4_later (c : Dev nD) (t : Fin cfg1.N) (h0 : t.val ≠ 0) (d) :
    (dat1 V c).before 4 t d = acc4 V c (t.val - 1) (Nat.lt_of_le_of_lt (Nat.sub_le _ _) t.isLt) := by
  have hN : t.val < 128 := lt_of_lt_of_eq t.isLt (show cfg1.N = 128 from N_1)
  rw [Dat.before_out_kept _ 4 rfl t h0
    (Bool.eq_false_iff.mpr fun h => by have := (flush1_4 _).mp h; dsimp only at this; omega)
    (fun _ => rfl) (fun _ _ => rfl)]
  exact after1_4 V c _
theorem before1_5_later (c : Dev nD) (t : Fin cfg1.N) (h0 : t.val ≠ 0) (d) :
    (dat1 V c).before 5 t d = acc5 V c (t.val - 1) (Nat.lt_of_le_of_lt (Nat.sub_le _ _) t.isLt) := by
  have hN : t.val < 128 := lt_of_lt_of_eq t.isLt (show cfg1.N = 128 from N_1)
  rw [Dat.before_out_kept _ 5 rfl t h0
    (Bool.eq_false_iff.mpr fun h => by have := (flush1_5 _).mp h; dsimp only at this; omega)
    (fun _ => rfl) (fun _ _ => rfl)]
  exact after1_5 V c _

/-! ## The body obligation, at a generic point -/

/-- What the body is called with at point `t`: the invariant, what the core owes, each window's current buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- What it returns: the same, each buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 800000 in
/-- The body at any point. The inputs' buffers hold their blocks. At the first point the condition holds and the
    accumulators, found at anything, end at the point's partial sums added to the reset value; at a later point it
    fails and they end at the partial sums added to what the point before left. The invariant and what the core
    owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  by_cases h0 : t.val = 0
  · rw [acc4_zero V c t h0, acc5_zero V c t h0]
    unfold part4 part5
    iintro ⟨HΦ, Ho, ⟨%d0, H0⟩, ⟨%d1, H1⟩, ⟨%d2, H2⟩, ⟨%d3, H3⟩, ⟨%d4, H4⟩, ⟨%d5, H5⟩⟩
    iapply (run_first c Set.univ (grid1.coords t) _ _ _ _ _ _ _ _ _ _ _ _ ((hcond1 t).mpr h0)
      (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [acc4_succ V c t h0, acc5_succ V c t h0]
    simp only [before1_4_later V c t h0, before1_5_later V c t h0]
    unfold part4 part5
    iintro ⟨HΦ, Ho, ⟨%d0, H0⟩, ⟨%d1, H1⟩, ⟨%d2, H2⟩, ⟨%d3, H3⟩, ⟨%d4, H4⟩, ⟨%d5, H5⟩⟩
    iapply (run_later c Set.univ (grid1.coords t) _ _ _ _ _ _ _ _ _ _ _ _ (fun h => h0 ((hcond1 t).mp h))
      (iblk1 V c 0 t) (iblk1 V c 1 t) (iblk1 V c 2 t) (iblk1 V c 3 t)
      (acc4 V c (t.val - 1) (Nat.lt_of_le_of_lt (Nat.sub_le _ _) t.isLt))
      (acc5 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The pipeline library's body obligation for region 1, at every point, on any core. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
import proofs.«121024_j55929064128529_1_alg».proof.Proof.Gen.KernelIdeal.Launch
import proofs.«121024_j55929064128529_1_alg».proof.Proof.Gen.KernelIdeal.Skeleton
import proofs.«121024_j55929064128529_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«121024_j55929064128529_1_alg».proof.Proof.KI.Defs
import proofs.«121024_j55929064128529_1_alg».proof.Proof.KI.Bounds
import proofs.«121024_j55929064128529_1_alg».proof.Proof.KI.Body0
import proofs.«121024_j55929064128529_1_alg».proof.Proof.KI.Body1
import proofs.«121024_j55929064128529_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## Region 0 as a segment -/

set_option backward.isDefEq.respectTransparency.types false in
/-- Region 0: entered from every unscoped buffer at `W1`, left at `W2`. Its two arrays are distinct buffers: they are split
    out of the unscoped buffers at entry and put back at exit; the generator register goes through the class invariant. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1: one array behind two windows

The distance matrix reaches region 1 through windows 0 and 1. The region holds that one buffer's full share as two halves,
one per window; the other four windows' arrays are distinct buffers held whole. -/

/-- The distinct buffers behind region 1's six windows. -/
theorem arrImg1 : Finset.univ.image (Pipeline.arrRef spec1)
    = ([main_v16, main_v12, main_v15, main_v17_0, main_v17_1] : List (Ref sig .tc)).toFinset := by decide

/-- Those buffers, each whole at contents `V`, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v16) ↦{fullShare} V main_v16) ∗ (((c : Thread nD τ).loc main_v12) ↦{fullShare} V main_v12)
          ∗ (((c : Thread nD τ).loc main_v15) ↦{fullShare} V main_v15) ∗ (((c : Thread nD τ).loc main_v17_0) ↦{fullShare} V main_v17_0)
          ∗ (((c : Thread nD τ).loc main_v17_1) ↦{fullShare} V main_v17_1)) := by
  unfold Pipeline.arrBufs
  rw [bigSep_eq_bigSepL_of_eq _ arrImg1 (by decide)]
  rfl

section Shares
variable (V : (c : Dev nD) → (b : Ref sig .tc) → Buf (Elt F) ((c : Thread nD τ).loc b))
theorem share1_0 (c : Dev nD) : (dat1 V c).share 0 = (fullShare : PosShare TreeShare).left := rfl
theorem share1_1 (c : Dev nD) : (dat1 V c).share 1 = (fullShare : PosShare TreeShare).right := rfl
theorem share1_2 (c : Dev nD) : (dat1 V c).share 2 = fullShare := rfl
theorem share1_3 (c : Dev nD) : (dat1 V c).share 3 = fullShare := rfl
theorem share1_4 (c : Dev nD) : (dat1 V c).share 4 = fullShare := rfl
theorem share1_5 (c : Dev nD) : (dat1 V c).share 5 = fullShare := rfl

/-- The proof data's arrays, window by window, each at its share. -/
theorem arrays1_eq (c : Dev nD)
    (G : (w : Fin cfg1.W) → Buf (Elt F) ((cfg1.win w).arr.view.loc (c : Thread nD τ))) :
    ((dat1 V c).arrays G : sProp 𝕄)
      = iprop((((c : Thread nD τ).loc main_v16) ↦{(fullShare : PosShare TreeShare).left} G 0) ∗ (((c : Thread nD τ).loc main_v16) ↦{(fullShare : PosShare TreeShare).right} G 1)
          ∗ (((c : Thread nD τ).loc main_v12) ↦{fullShare} G 2) ∗ (((c : Thread nD τ).loc main_v15) ↦{fullShare} G 3)
          ∗ (((c : Thread nD τ).loc main_v17_0) ↦{fullShare} G 4) ∗ (((c : Thread nD τ).loc main_v17_1) ↦{fullShare} G 5)) := by
  unfold Dat.arrays
  rw [bigSep_W1, (arr_whole1 0).set_eq_univ, (arr_whole1 2).set_eq_univ, (arr_whole1 3).set_eq_univ,
    (arr_whole1 4).set_eq_univ, (arr_whole1 5).set_eq_univ, share1_0, share1_1, share1_2, share1_3, share1_4, share1_5]
end Shares

/-- ENTRY of region 1: every unscoped buffer at `W2` is the region's arrays at their entry contents — the distance matrix's
    full share cut in two halves — and the rest. -/
theorem split1 (c : Dev nD) :
    StableHlo.held (c : Thread nD τ) (Pipeline.ucRefs τ sig) (W2 m ρ c)
      ⊢ (iprop((dat1 (V2 m ρ) c).arrays ((dat1 (V2 m ρ) c).arrAt · 0)
          ∗ Pipeline.unscopedRest (Ix := Unit) (Name := ℕ) (U := UR sig nD τ) (Lvl := ℕ) spec1 c (V2 m ρ c)) : sProp 𝕄) := by
  rw [← Pipeline.unscopedBufs_held (Ix := Unit) (Name := ℕ) (U := UR sig nD τ) (Lvl := ℕ) c (W2 m ρ c),
    Pipeline.unscopedBufs_split₀ cfgs 1 winFacts₀1.arr_unscoped c]
  show (iprop(Pipeline.arrBufs (Ix := Unit) (Name := ℕ) (U := UR sig nD τ) (Lvl := ℕ) spec1 c (V2 m ρ c)
      ∗ Pipeline.unscopedRest (Ix := Unit) (Name := ℕ) (U := UR sig nD τ) (Lvl := ℕ) spec1 c (V2 m ρ c)) : sProp 𝕄) ⊢ _
  rw [arrBufs1_eq, arrays1_eq]
  iintro ⟨⟨Hd, Hp, Hn, Hs, Hk⟩, Hrest⟩
  ihave Hd := (pointsTo_share (PosShare.mem_left_op_right fullShare)).1 $$ Hd
  icases Hd with ⟨Hl, Hr⟩
  isplitr [Hrest]
  · isplitl [Hl]; · iexact Hl
    isplitl [Hr]; · iexact Hr
    isplitl [Hp]; · iexact Hp
    isplitl [Hn]; · iexact Hn
    isplitl [Hs]; · iexact Hs
    iexact Hk
  · iexact Hrest

/-- EXIT of region 1: its arrays at their final contents — the inputs as entered, the two halves of the distance matrix
    joined again, the two results at what the last write-backs leave — and the rest are every unscoped buffer at `W3`. -/
theorem join1 (c : Dev nD) :
    (iprop((dat1 (V2 m ρ) c).arrays ((dat1 (V2 m ρ) c).arrAt · cfg1.N)
        ∗ Pipeline.unscopedRest (Ix := Unit) (Name := ℕ) (U := UR sig nD τ) (Lvl := ℕ) spec1 c (V2 m ρ c)) : sProp 𝕄)
      ⊢ StableHlo.held (c : Thread nD τ) (Pipeline.ucRefs τ sig) (W3 m ρ c) := by
  rw [← Pipeline.unscopedBufs_held (Ix := Unit) (Name := ℕ) (U := UR sig nD τ) (Lvl := ℕ) c (W3 m ρ c),
    Pipeline.unscopedBufs_split₀ cfgs 1 winFacts₀1.arr_unscoped c]
  show _ ⊢ (iprop(Pipeline.arrBufs (Ix := Unit) (Name := ℕ) (U := UR sig nD τ) (Lvl := ℕ) spec1 c (V3 m ρ c)
      ∗ Pipeline.unscopedRest (Ix := Unit) (Name := ℕ) (U := UR sig nD τ) (Lvl := ℕ) spec1 c (V3 m ρ c)) : sProp 𝕄)
  have hrest : (Pipeline.unscopedRest (Ix := Unit) (Name := ℕ) (U := UR sig nD τ) (Lvl := ℕ) spec1 c (V3 m ρ c) : sProp 𝕄)
      = Pipeline.unscopedRest (Ix := Unit) (Name := ℕ) (U := UR sig nD τ) (Lvl := ℕ) spec1 c (V2 m ρ c) := by
    unfold Pipeline.unscopedRest
    refine bigSep_congr fun b hb => ?_
    have hb' := (Finset.mem_sdiff.mp hb).2
    rw [arrImg1] at hb'
    have h0 : b ≠ main_v17_0 := fun e => hb' (by rw [e]; decide)
    have h1 : b ≠ main_v17_1 := fun e => hb' (by rw [e]; decide)
    rw [show V3 m ρ c b = V2 m ρ c b from W3_of_ne m ρ c b h0 h1]
  have e0 : (dat1 (V2 m ρ) c).arrAt 0 cfg1.N = V3 m ρ c main_v16 :=
    ((dat1 (V2 m ρ) c).arrAt_in 0 rfl _).trans ((A_eq1 (V2 m ρ) c 0).trans (W3_of_ne m ρ c main_v16 (by decide) (by decide)).symm)
  have e1 : (dat1 (V2 m ρ) c).arrAt 1 cfg1.N = V3 m ρ c main_v16 :=
    ((dat1 (V2 m ρ) c).arrAt_in 1 rfl _).trans ((A_eq1 (V2 m ρ) c 1).trans (W3_of_ne m ρ c main_v16 (by decide) (by decide)).symm)
  have e2 : (dat1 (V2 m ρ) c).arrAt 2 cfg1.N = V3 m ρ c main_v12 :=
    ((dat1 (V2 m ρ) c).arrAt_in 2 rfl _).trans ((A_eq1 (V2 m ρ) c 2).trans (W3_of_ne m ρ c main_v12 (by decide) (by decide)).symm)
  have e3 : (dat1 (V2 m ρ) c).arrAt 3 cfg1.N = V3 m ρ c main_v15 :=
    ((dat1 (V2 m ρ) c).arrAt_in 3 rfl _).trans ((A_eq1 (V2 m ρ) c 3).trans (W3_of_ne m ρ c main_v15 (by decide) (by decide)).symm)
  have e4 : (dat1 (V2 m ρ) c).arrAt 4 cfg1.N = V3 m ρ c main_v17_0 := (W3_sum m ρ c).symm
  have e5 : (dat1 (V2 m ρ) c).arrAt 5 cfg1.N = V3 m ρ c main_v17_1 := (W3_cnt m ρ c).symm
  rw [hrest, arrBufs1_eq, arrays1_eq, e0, e1, e2, e3, e4, e5]
  iintro ⟨⟨Hl, Hr, Hp, Hn, Hs, Hk⟩, Hrest⟩
  ihave Hd := (pointsTo_share (PosShare.mem_left_op_right fullShare)).2 $$ [Hl Hr]
  · isplitl [Hl] <;> iassumption
  isplitr [Hrest]
  · isplitl [Hd]; · iexact Hd
    isplitl [Hp]; · iexact Hp
    isplitl [Hn]; · iexact Hn
    isplitl [Hs]; · iexact Hs
    iexact Hk
  · iexact Hrest

set_option backward.isDefEq.respectTransparency.types false in
/-- Region 1: entered from every unscoped buffer at `W2`, left at `W3`. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    iintro ⟨⟨Hub, Hp, HO⟩, -, -⟩
    ihave H := split1 m ρ c $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (join1 m ρ c)
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

/-- The last thread state without the `owes`: every unscoped buffer at the last boundary's contents, the generator register. -/
abbrev Tₙ (c : Dev nD) : sProp 𝕄 := iprop(StableHlo.held (c : Thread nD τ) (Pipeline.ucRefs τ sig) (W4 m ρ c) ∗ ∃ r, prngReg c r)

/-- @main's four segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN: from any memory with zero counters every weakly fair execution of @main terminates, faulting nowhere, and
    every final state holds every unscoped buffer of every core at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show (iprop(StableHlo.held (c : Thread nD τ) (Pipeline.ucRefs τ sig) (W4 m ρ c) ∗ R c) : sProp 𝕄) ⊢ _
      iintro ⟨Hh, ⟨Hp, HO⟩⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## The arguments end as launched -/

theorem W4_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (by decide)
    _ = W2 m ρ c (Proc.devRef .tc main_arg0) := W3_of_ne m ρ c main_arg0 (by decide) (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl
theorem W4_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (by decide)
    _ = W2 m ρ c (Proc.devRef .tc main_arg1) := W3_of_ne m ρ c main_arg1 (by decide) (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

/-- THE FRAME: @main runs to the end, faults nowhere, and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W4_arg0 m ρ c), (h c _ (mem_uc main_arg1 (by decide))).trans (W4_arg1 m ρ c)⟩)
    (run_all m ρ)

end Cert.KernelIdeal.Hand

end
-- ==== Proof.Spec.lean ====
import Idealize.ShloMosaic.PureOps.Ideal
import Idealize.ShloMosaic.PureOps.Ideal.Laws
import Idealize.ShloMosaic.Lib.ValueIdx

/-! The batch-all triplet loss over 512 embeddings, as ONE function of the argument arrays on the extended reals:
the squared-distance matrix in Gram form, the hinge of every (anchor, positive, negative) triple, the two 0/1 masks
read off the labels, the masked sum of the hinges divided by the number of valid triples (at least one). Both
programs are shown to compute `loss`. -/

noncomputable section

namespace Cert.Spec

open Idealize.ShloMosaic

/-- The literals both programs print, kept as their words. -/
abbrev two : EReal := Ideal.ofBits .f32 0x40000000#32
abbrev one : EReal := Ideal.ofBits .f32 0x3F800000#32

/-- A 512×512 array as a function of its two coordinates; a length-512 array of its one. -/
abbrev S2 : Shape := ⟨2, ![512, 512]⟩
abbrev S1 : Shape := ⟨1, ![512]⟩
def arr2 {α : Type} (x : S2.Idx → α) (i j : Fin 512) : α := x (ValueIdx.ix2 i j)
def arr1 {α : Type} (x : S1.Idx → α) (i : Fin 512) : α := x (ValueIdx.ix1 i)

/-- The squared norm of row `i`. -/
def sqn (e : Fin 512 → Fin 512 → EReal) (i : Fin 512) : EReal := ∑ k : Fin 512, e i k * e i k
/-- The squared distance of rows `i` and `j` in Gram form: `(|eᵢ|² + |eⱼ|²) − 2 · ⟨eᵢ, eⱼ⟩`. -/
def dist (e : Fin 512 → Fin 512 → EReal) (i j : Fin 512) : EReal :=
  (sqn e i + sqn e j) - two * ∑ k : Fin 512, e i k * e j k
/-- The hinge of a triple: `max (d(a,p) − d(a,n) + 1, 0)`. -/
def hinge (d : Fin 512 → Fin 512 → EReal) (a p n : Fin 512) : EReal := max ((d a p - d a n) + one) 0
/-- Valid positive pair: different index, same label; valid negative pair: different index, different label. As 0/1. -/
def pos (l : Fin 512 → BitVec 32) (a p : Fin 512) : EReal := if a ≠ p ∧ l a = l p then 1 else 0
def neg (l : Fin 512 → BitVec 32) (a n : Fin 512) : EReal := if a ≠ n ∧ l a ≠ l n then 1 else 0
/-- The masked sum of hinges, and the number of valid triples, over all 512³ triples. -/
def total (d ps ng : Fin 512 → Fin 512 → EReal) : EReal :=
  ∑ a : Fin 512, ∑ p : Fin 512, ∑ n : Fin 512, hinge d a p n * (ps a p * ng a n)
def count (ps ng : Fin 512 → Fin 512 → EReal) : EReal :=
  ∑ a : Fin 512, ∑ p : Fin 512, ∑ n : Fin 512, ps a p * ng a n
/-- The loss. -/
def loss (e : Fin 512 → Fin 512 → EReal) (l : Fin 512 → BitVec 32) : EReal :=
  Ideal.div (total (dist e) (pos l) (neg l)) (max (count (pos l) (neg l)) 1)

end Cert.Spec

end
-- ==== Proof.KI.ValDist.lean ====
import proofs.«121024_j55929064128529_1_alg».proof.Proof.KI.Defs
import proofs.«121024_j55929064128529_1_alg».proof.Proof.Spec
import Idealize.ShloMosaic.Lib.Pipeline.Value
import Idealize.ShloMosaic.Lib.ValueIdx
import Idealize.ShloMosaic.Lib.ValueLayout
import Idealize.ShloMosaic.PureOps.Ideal.Laws

/-! The block region 0 stores, read at an index, on the extended reals: entry `(i, j)` is the squared distance of rows
`i` and `j` of the loaded block in Gram form, `(|xᵢ|² + |xⱼ|²) − 2 · ⟨xᵢ, xⱼ⟩`. The product of the block with its transpose
is the sum over the contracted coordinate of the rows' products; the lane sum of the squares is the row's squared norm,
which the column cast, the transpose and the two broadcasts place at `(i, ·)` and `(·, j)`; the narrowing of the
product's operands is the identity on the extended reals. -/

noncomputable section

namespace Cert.KernelIdeal.Val

open Idealize.ShloMosaic Idealize.ShloMosaic.TcCoe Idealize.SL.Sem
open Cert.KernelIdeal Cert.KernelIdeal.Gen Cert.KernelIdeal.Hand
open ValueIdx

namespace Dist

/-! ## The product of the block with its transpose, read at an index -/

/-- The left operand's index at output `i` and contraction `q`: row `i 0` … -/
theorem lhs_gram_0 (i : S512x512.Idx) (q : dot_S512x512_S512x512_S512x512_1_0_0_1_n_n.contr.Idx) :
    (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
/-- … column `q`. -/
theorem lhs_gram_1 (i : S512x512.Idx) (q : dot_S512x512_S512x512_S512x512_1_0_0_1_n_n.contr.Idx) :
    (dot_S512x512_S512x512_S512x512_1_0_0_1_n_n.lhsIdx i q 1).val = (q ⟨0, by decide⟩).val :=
  dot_S512x512_S512x512_S512x512_1_0_0_1_n_n.lhsIdx_val_of_single rfl i q
/-- The right operand's index: row `q` … -/
theorem rhs_gram_0 (i : S512x512.Idx) (q : dot_S512x512_S512x512_S512x512_1_0_0_1_n_n.contr.Idx) :
    (dot_S512x512_S512x512_S512x512_1_0_0_1_n_n.rhsIdx i q 0).val = (q ⟨0, by decide⟩).val :=
  dot_S512x512_S512x512_S512x512_1_0_0_1_n_n.rhsIdx_val_of_single rfl i q
/-- … column `i 1`. -/
theorem rhs_gram_1 (i : S512x512.Idx) (q : dot_S512x512_S512x512_S512x512_1_0_0_1_n_n.contr.Idx) :
    (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- The matrix product into the zero accumulator at `(i, j)` is `∑ k, a (i, k) * b (k, j)`. -/
theorem matmul_zero_apply (a b : FVec Ideal S512x512 .bf16) (i j : Fin 512) :
    matmul dot_S512x512_S512x512_S512x512_1_0_0_1_n_n none a b (constant (F := Ideal) S512x512 .f32 0x00000000#32) (ix2 i j)
      = ∑ k : Fin 512, a (ix2 i k) * b (ix2 k j) := by
  simp only [matmul]
  rw [Ideal.matmul_constant_zero_apply, ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 i j) ((contrEquiv1 dot_S512x512_S512x512_S512x512_1_0_0_1_n_n 512 rfl rfl).symm k) = ix2 i k := funext fun c => Fin.ext (by
    match c with
    | ⟨0, _⟩ => exact lhs_gram_0 _ _
    | ⟨1, _⟩ => exact (lhs_gram_1 _ _).trans hk)
  have er : dot_S512x512_S512x512_S512x512_1_0_0_1_n_n.rhsIdx (ix2 i j) ((contrEquiv1 dot_S512x512_S512x512_S512x512_1_0_0_1_n_n 512 rfl rfl).symm k) = ix2 k j := funext fun c => Fin.ext (by
    match c with
    | ⟨0, _⟩ => exact (rhs_gram_0 _ _).trans hk
    | ⟨1, _⟩ => exact rhs_gram_1 _ _)
  rw [el, er]

/-- The product of a block with its own transpose at `(i, j)`: the inner product of rows `i` and `j`. -/
theorem gram_apply (a : FVec Ideal S512x512 .bf16) (i j : Fin 512) :
    matmul dot_S512x512_S512x512_S512x512_1_0_0_1_n_n none a (transpose S512x512 [1, 0] a transposes_S512x512_p1_0_S512x512)
        (constant (F := Ideal) S512x512 .f32 0x00000000#32) (ix2 i j)
      = ∑ k : Fin 512, a (ix2 i k) * a (ix2 j k) := by
  rw [matmul_zero_apply]
  exact Finset.sum_congr rfl fun k _ => congrArg (a (ix2 i k) * ·) (transpose_ix2_apply a _ k j)

/-! ## The row sums and their two layouts, read at an index -/

/-- The sum over the lanes of row `r`. -/
theorem rowsum_apply (v : FVec Ideal S512x512 .f32) (hφ : FKind.Formats .f32)
    (hacc : (0x00000000#32 : BitVec 32) = 0x00000000#32) (r : Fin 512) :
    multiReduction (F := Ideal) .add [1] S512 v 0x00000000#32 reduces_S512x512_S512 hφ hacc (ix1 r)
      = ∑ k : Fin 512, v (ix2 r k) := by
  refine (Ideal.multiReduction_add_single v 0x00000000#32 reduces_S512x512_S512 hφ hacc (ix1 r)).trans ?_
  refine Finset.sum_congr rfl fun k _ => congrArg v (funext fun c => ?_)
  match c with
  | ⟨0, _⟩ => exact Fin.ext rfl
  | ⟨1, _⟩ => exact Fin.ext rfl

variable {α : Type}

/-- An `[a]` array cast to the column `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The payload -/

/-- The payload of region 0 at `(i, j)`: the two row sums of squares, each in its layout, less twice the product's entry. -/
theorem k0_pay1_apply (x : Vec Ideal S512x512 .f32) (i j : Fin 512) :
    k0_pay1 (F := Ideal) x (ix2 i j) = Cert.Spec.dist (Cert.Spec.arr2 x) i j := by
  unfold k0_pay1
  dsimp only []
  rw [subf_apply, addf_apply, mulf_apply, broadcast_apply, broadcastTo_a1_ab_apply, broadcastTo_1b_ab_apply,
    transpose_ix2_apply, shapeCast_a_a1_apply, shapeCast_a_a1_apply, rowsum_apply, rowsum_apply, gram_apply]
  simp only [mulf_apply, truncf_apply]
  rfl

/-- The whole block's zero offsets are the constant zero function. -/
theorem zero_offsets : (![0, 0] : Fin 2 → Nat) = fun _ => 0 := by
  funext a; match a with | ⟨0, _⟩ => rfl | ⟨1, _⟩ => rfl

end Dist

/-- What region 0 stores, read at an index: entry `(i, j)` of the stored block is the Gram-form squared distance of rows
    `i` and `j` of the loaded block. -/
theorem out0_1_apply (x : Vec Ideal S512x512 .f32) (i j : Fin 512) :
    out0_1 (F := Ideal) x (ix2 i j) = Cert.Spec.dist (Cert.Spec.arr2 x) i j := by
  unfold out0_1
  rw [View.canon_unit_zero Dist.zero_offsets, View.ld_unit_zero Dist.zero_offsets]
  exact Dist.k0_pay1_apply x i j

end Cert.KernelIdeal.Val

end
-- ==== Proof.KI.ValDistArr.lean ====
import proofs.«121024_j55929064128529_1_alg».proof.Proof.KI.Defs
import proofs.«121024_j55929064128529_1_alg».proof.Proof.Spec
import proofs.«121024_j55929064128529_1_alg».proof.Proof.KI.Bounds
import proofs.«121024_j55929064128529_1_alg».proof.Proof.KI.ValDist
import proofs.«121024_j55929064128529_1_alg».proof.Proof.Gen.KernelIdeal.Regions
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal.Laws

/-! The distance matrix as an array: region 0 has one grid point, whose input block is the whole argument array and whose
write-back covers the whole result array, so the result array ends holding the stored block; its entries are the
Gram-form squared distances of the argument's rows, the argument being at the region's entry what it was at launch. -/

noncomputable section

namespace Cert.KernelIdeal.Val

open Idealize.ShloMosaic Idealize.ShloMosaic.TcCoe Idealize.SL.Sem
open Cert.KernelIdeal Cert.KernelIdeal.Gen Cert.KernelIdeal.Hand
open ValueIdx

variable (m : (ℓ : Loc nD τ sig) → Buf (Elt Ideal) ℓ) (ρ : Dev nD → PrngReg)

namespace DistArr

/-- The argument reaches region 0 as launched: no host operation before the region writes it. -/
theorem arg0_entry (c : Dev nD) : Hand.V1 (F := Ideal) m ρ c main_arg0 = m ((c : Thread nD τ).loc main_arg0) :=
  (StableHlo.after_of_writes_sub hostOps0 _ hostOps0_writes (by decide)).trans rfl

/-- Region 0's one point reads, through its input window, the whole argument array: block `(0, 0)` of size 512×512. -/
theorem iblk0_whole (V : (c : Dev nD) → (b : Ref sig .tc) → Buf (Elt Ideal) ((c : Thread nD τ).loc b)) (c : Dev nD)
    (t : Fin cfg0.N) : iblk0 (F := Ideal) V c 0 t = V c main_arg0 := by
  obtain rfl : t = t0_0 := fin_N0 t
  have hz' : (fun a => win0_0.index t0_0 a * main_arg0.ty.shape.size a) = fun _ => 0 :=
    funext fun a => by fin_cases a <;> decide
  exact Memref.read_access_unit_zero (Elt Ideal) main_arg0 hz' (fun a => by rw [congrFun hz' a]; simp) (V c main_arg0)

/-- What the one write-back writes is the whole of the stored block: the output's block `(0, 0)` is its whole array. -/
theorem flushed_eq (c : Dev nD) (t : Fin cfg0.N) (hf : (cfg0.win 1).flush t = true) :
    (dat0 (Hand.V1 (F := Ideal) m ρ) c).flushed 1 t
      = ((cfg0.win 1).blk t).view.read (Elt Ideal) (out0_1 (Hand.V1 (F := Ideal) m ρ c main_arg0)) := by
  obtain rfl : t = t0_0 := fin_N0 t
  show (cfg0.win 1).cut (grid0.coords t0_0) ((dat0 (Hand.V1 (F := Ideal) m ρ) c).after 1 t0_0) = _
  rw [after0_1, iblk0_whole]
  have hz' : (fun a => win0_1.index t0_0 a * main_v16.ty.shape.size a) = fun _ => 0 :=
    funext fun a => by fin_cases a <;> decide
  exact (Memref.read_access_unit_zero (Elt Ideal) main_v16 hz' (fun a => by rw [congrFun hz' a]; simp)
    (out0_1 (Hand.V1 (F := Ideal) m ρ c main_arg0))).symm

/-- The one point's block covers the result array, so the array ends holding the stored block. -/
theorem arr_eq (c : Dev nD) :
    (dat0 (Hand.V1 (F := Ideal) m ρ) c).arrAt 1 cfg0.N = out0_1 (Hand.V1 (F := Ideal) m ρ c main_arg0) :=
  (dat0 (Hand.V1 (F := Ideal) m ρ) c).arrAt_eq_of_cover 1 (out0_1 (Hand.V1 (F := Ideal) m ρ c main_arg0)) (flushed_eq m ρ c) fun i =>
    ⟨t0_0, flush0_1 t0_0, by
      show i ∈ ((View.whole main_v16).slice (win0_1.rect t0_0)).set
      rw [View.set_slice_whole, Rect.mem_set_unit]
      intro a
      have h0 : (i 0 : Nat) < 512 := (i 0).isLt
      have h1 : (i 1 : Nat) < 512 := (i 1).isLt
      match a with
      | ⟨0, _⟩ =>
        show win0_1.index t0_0 0 * win0_1.size 0 ≤ (i 0 : Nat)
          ∧ (i 0 : Nat) < win0_1.index t0_0 0 * win0_1.size 0 + win0_1.xsize (grid0.coords t0_0) 0
        rw [show win0_1.index t0_0 0 * win0_1.size 0 = 0 from by decide +kernel,
          show win0_1.xsize (grid0.coords t0_0) 0 = 512 from by decide +kernel]
        omega
      | ⟨1, _⟩ =>
        show win0_1.index t0_0 1 * win0_1.size 1 ≤ (i 1 : Nat)
          ∧ (i 1 : Nat) < win0_1.index t0_0 1 * win0_1.size 1 + win0_1.xsize (grid0.coords t0_0) 1
        rw [show win0_1.index t0_0 1 * win0_1.size 1 = 0 from by decide +kernel,
          show win0_1.xsize (grid0.coords t0_0) 1 = 512 from by decide +kernel]
        omega⟩

end DistArr

/-- The distance matrix region 1 reads: what region 0's one write-back leaves in its result array, entry by entry, is the
    Gram-form squared distance of the argument's rows (no host operation before region 0 writes the argument). -/
theorem dist_array (c : Dev nD) (i j : Fin 512) :
    V2 (F := Ideal) m ρ c main_v16 (ix2 i j)
      = Cert.Spec.dist (Cert.Spec.arr2 (m ((c : Thread nD τ).loc main_arg0))) i j := by
  have h : V2 (F := Ideal) m ρ c main_v16 = out0_1 (Hand.V1 (F := Ideal) m ρ c main_arg0) :=
    (hF0 m ρ c 1).symm.trans (DistArr.arr_eq m ρ c)
  refine (congrFun h (ix2 i j)).trans ((out0_1_apply _ i j).trans ?_)
  rw [DistArr.arg0_entry]

end Cert.KernelIdeal.Val

end
-- ==== Proof.Mask.lean ====
import proofs.«121024_j55929064128529_1_alg».proof.Proof.Spec
import Idealize.ShloMosaic.PureOps.Ideal
import Idealize.ShloMosaic.Lib.ValueIdx
import Idealize.ShloMosaic.Lib.StableHlo.Predicate

/-! The two validity masks as both programs build them on the host from the label vector — an `iota` comparison for
"different index", a comparison of the labels broadcast along rows and along columns for "same label" — read at an
index: bit `(a, p)` of the positive mask is set iff `a ≠ p` and the labels agree; of the negative mask iff `a ≠ n` and
they differ. Converted to floats they are the 0/1 functions `Spec.pos`, `Spec.neg`. Stated over arbitrary witnesses of
the broadcasts' side conditions, so that they apply to either program's printed term. -/

noncomputable section

namespace Cert.Spec

open Idealize.ShloMosaic

abbrev S0 : Shape := ⟨0, ![]⟩
abbrev Sc : Shape := ⟨2, ![512, 1]⟩
abbrev Sr : Shape := ⟨2, ![1, 512]⟩

section
variable (h1 : S1.BroadcastsInDim Sc (![0] : Fin 1 → Fin Sc.rank)) (h2 : S1.BroadcastsInDim Sr (![1] : Fin 1 → Fin Sr.rank))
  (h3 : Sc.BroadcastsInDim S2 (![0, 1] : Fin 2 → Fin S2.rank)) (h4 : Sr.BroadcastsInDim S2 (![0, 1] : Fin 2 → Fin S2.rank))
  (h5 : S0.BroadcastsInDim S2 (![] : Fin 0 → Fin S2.rank))

/-- "Different index": not (row iota + 0 = column iota). -/
def offDiag : IVec S2 1 :=
  noti (cmpi .eq (addi (iotaInDim S2 32 0) (broadcastInDim S2 ![] h5 (constantI S0 32 0#32))) (iotaInDim S2 32 1))
/-- "Same label": the labels along rows against the labels along columns. -/
def sameLabel (l : IVec S1 32) : IVec S2 1 :=
  cmpi .eq (broadcastInDim S2 ![0, 1] h3 (broadcastInDim Sc ![0] h1 l)) (broadcastInDim S2 ![0, 1] h4 (broadcastInDim Sr ![1] h2 l))
/-- The positive-pair mask and the negative-pair mask, as bits. -/
def posBits (l : IVec S1 32) : IVec S2 1 := andi (offDiag h5) (sameLabel h1 h2 h3 h4 l)
def negBits (l : IVec S1 32) : IVec S2 1 := andi (offDiag h5) (noti (sameLabel h1 h2 h3 h4 l))

/-- Positions below 512 are distinct as 32-bit words: nothing wraps below 2³². -/
theorem ofNat_val_inj (a p : Fin 512) : BitVec.ofNat 32 a.val = BitVec.ofNat 32 p.val ↔ a = p := by
  constructor
  · intro h
    have e := congrArg BitVec.toNat h
    simp only [BitVec.toNat_ofNat] at e
    apply Fin.ext
    have ha := a.isLt
    have hp := p.isLt
    omega
  · rintro rfl; rfl

/-- The two ways of writing a rank-2 index from its coordinates, and a rank-1 index from its coordinate, agree. -/
theorem ij_eq_ix2 {n m : Nat} (a : Fin n) (p : Fin m) : StableHlo.Predicate.ij a p = ValueIdx.ix2 a p := by
  funext d; match d with | ⟨0, _⟩ => rfl | ⟨1, _⟩ => rfl
theorem ofFin_eq_ix1 {n : Nat} (a : Fin n) : Shape.Idx.ofFin a = ValueIdx.ix1 a := by
  funext d; match d with | ⟨0, _⟩ => rfl

/-- An equality test of words is the bit of the equality. -/
theorem cmpi_eq_bit {w : Nat} (x y : BitVec w) : IntOp.cmpi .eq x y = if x = y then 1#1 else 0#1 := by
  by_cases h : x = y
  · rw [if_pos h]; exact StableHlo.Predicate.cmpi_eq_iff.mpr h
  · rw [if_neg h]
    rcases BitVec.eq_zero_or_eq_one (IntOp.cmpi .eq x y) with e | e
    · exact e
    · exact absurd (StableHlo.Predicate.cmpi_eq_iff.mp e) h

/-- "Different index" at (a, p): the row position plus zero against the column position. -/
theorem offDiag_apply (a p : Fin 512) : offDiag h5 (ValueIdx.ix2 a p) = if a ≠ p then 1#1 else 0#1 := by
  have e : offDiag h5 (ValueIdx.ix2 a p)
      = ~~~ (IntOp.cmpi .eq (BitVec.ofNat 32 a.val + 0#32) (BitVec.ofNat 32 p.val)) := rfl
  rw [e, BitVec.add_zero, cmpi_eq_bit]
  by_cases h : a = p
  · rw [if_pos ((ofNat_val_inj a p).mpr h), if_neg (not_not.mpr h)]; rfl
  · rw [if_neg (fun h' => h ((ofNat_val_inj a p).mp h')), if_pos h]; rfl

/-- "Same label" at (a, p): the row broadcast reads the label at a, the column broadcast the label at p. -/
theorem sameLabel_apply (l : IVec S1 32) (a p : Fin 512) :
    sameLabel h1 h2 h3 h4 l (ValueIdx.ix2 a p) = if arr1 l a = arr1 l p then 1#1 else 0#1 := by
  have e : sameLabel h1 h2 h3 h4 l (ValueIdx.ix2 a p)
      = IntOp.cmpi .eq (broadcastInDim S2 ![0, 1] h3 (broadcastInDim Sc ![0] h1 l) (StableHlo.Predicate.ij a p))
          (broadcastInDim S2 ![0, 1] h4 (broadcastInDim Sr ![1] h2 l) (StableHlo.Predicate.ij a p)) := by
    rw [ij_eq_ix2]; rfl
  rw [e, StableHlo.Predicate.bcast_rows h1 h3 l a p, StableHlo.Predicate.bcast_cols h2 h4 l a p, ofFin_eq_ix1, ofFin_eq_ix1,
    cmpi_eq_bit]
  rfl

theorem posBits_apply (l : IVec S1 32) (a p : Fin 512) :
    posBits h1 h2 h3 h4 h5 l (ValueIdx.ix2 a p) = if a ≠ p ∧ arr1 l a = arr1 l p then 1#1 else 0#1 := by
  have e : posBits h1 h2 h3 h4 h5 l (ValueIdx.ix2 a p)
      = offDiag h5 (ValueIdx.ix2 a p) &&& sameLabel h1 h2 h3 h4 l (ValueIdx.ix2 a p) := rfl
  rw [e, offDiag_apply, sameLabel_apply]
  by_cases h : a = p <;> by_cases h' : arr1 l a = arr1 l p <;> simp [h, h']
theorem negBits_apply (l : IVec S1 32) (a n : Fin 512) :
    negBits h1 h2 h3 h4 h5 l (ValueIdx.ix2 a n) = if a ≠ n ∧ arr1 l a ≠ arr1 l n then 1#1 else 0#1 := by
  have e : negBits h1 h2 h3 h4 h5 l (ValueIdx.ix2 a n)
      = offDiag h5 (ValueIdx.ix2 a n) &&& ~~~ sameLabel h1 h2 h3 h4 l (ValueIdx.ix2 a n) := rfl
  rw [e, offDiag_apply, sameLabel_apply]
  by_cases h : a = n <;> by_cases h' : arr1 l a = arr1 l n <;> simp [h, h']
/-- A bit converted to a float at the extended reals is 0 or 1. -/
theorem uitofp_bit (b : BitVec 1) : (FloatOps.uitofp (F := Ideal) .f32 b : EReal) = if b = 1#1 then 1 else 0 := by
  rcases BitVec.eq_zero_or_eq_one b with rfl | rfl
  · show (((0#1).toNat : ℝ) : EReal) = _
    simp
  · show (((1#1).toNat : ℝ) : EReal) = _
    simp
theorem uitofp_posBits (l : IVec S1 32) (a p : Fin 512) :
    uitofp (F := Ideal) .f32 (posBits h1 h2 h3 h4 h5 l) (ValueIdx.ix2 a p) = pos (arr1 l) a p := by
  show FloatOps.uitofp (F := Ideal) .f32 (posBits h1 h2 h3 h4 h5 l (ValueIdx.ix2 a p)) = _
  rw [uitofp_bit, posBits_apply]
  unfold pos
  by_cases h : a ≠ p ∧ arr1 l a = arr1 l p
  · rw [if_pos h, if_pos rfl, if_pos h]
  · rw [if_neg h, if_neg (by decide), if_neg h]
theorem uitofp_negBits (l : IVec S1 32) (a n : Fin 512) :
    uitofp (F := Ideal) .f32 (negBits h1 h2 h3 h4 h5 l) (ValueIdx.ix2 a n) = neg (arr1 l) a n := by
  show FloatOps.uitofp (F := Ideal) .f32 (negBits h1 h2 h3 h4 h5 l (ValueIdx.ix2 a n)) = _
  rw [uitofp_bit, negBits_apply]
  unfold neg
  by_cases h : a ≠ n ∧ arr1 l a ≠ arr1 l n
  · rw [if_pos h, if_pos rfl, if_pos h]
  · rw [if_neg h, if_neg (by decide), if_neg h]
end

end Cert.Spec

end
-- ==== Proof.KI.ValMask.lean ====
import proofs.«121024_j55929064128529_1_alg».proof.Proof.KI.Defs
import proofs.«121024_j55929064128529_1_alg».proof.Proof.Spec
import proofs.«121024_j55929064128529_1_alg».proof.Proof.KI.Bounds
import proofs.«121024_j55929064128529_1_alg».proof.Proof.Mask
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.TcCoe Idealize.SL.Sem
open Cert.KernelIdeal Cert.KernelIdeal.Gen Cert.KernelIdeal.Hand
open ValueIdx

variable (m : (ℓ : Loc nD τ sig) → Buf (Elt Ideal) ℓ) (ρ : Dev nD → PrngReg)

/-- The two float masks region 1 reads are the 0/1 validity functions of the label vector: region 0 does not touch them,
    and the first host stretch builds them from the labels. -/
theorem pos_array (c : Dev nD) (a p : Fin 512) :
    V2 (F := Ideal) m ρ c main_v12 (ix2 a p) = Cert.Spec.pos (Cert.Spec.arr1 (m ((c : Thread nD τ).loc main_arg1))) a p := by
  -- region 0 writes only its own output array
  have e0 : V2 (F := Ideal) m ρ c main_v12 = W1 (F := Ideal) m ρ c (Proc.devRef .tc main_v12) :=
    W2_of_ne m ρ c main_v12 (by decide)
  -- the host stretch composes to the positive-pair mask of the labels, converted to floats
  have e1 : (W1 (F := Ideal) m ρ c (Proc.devRef .tc main_v12) : S512x512.Idx → EReal)
      = uitofp (F := Ideal) .f32 (Cert.Spec.posBits bcast_S512_S512x1_0 bcast_S512_S1x512_1 bcast_S512x1_S512x512_0_1
          bcast_S1x512_S512x512_0_1 bcast_S_S512x512 (m ((c : Thread nD τ).loc main_arg1))) := by
    show StableHlo.after hostOps0 _ (Proc.devRef .tc main_v12) = _
    after_results
    rfl
  rw [e0, e1, Cert.Spec.uitofp_posBits]
theorem neg_array (c : Dev nD) (a n : Fin 512) :
    V2 (F := Ideal) m ρ c main_v15 (ix2 a n) = Cert.Spec.neg (Cert.Spec.arr1 (m ((c : Thread nD τ).loc main_arg1))) a n := by
  have e0 : V2 (F := Ideal) m ρ c main_v15 = W1 (F := Ideal) m ρ c (Proc.devRef .tc main_v15) :=
    W2_of_ne m ρ c main_v15 (by decide)
  -- the host stretch composes to the negative-pair mask of the labels, converted to floats
  have e1 : (W1 (F := Ideal) m ρ c (Proc.devRef .tc main_v15) : S512x512.Idx → EReal)
      = uitofp (F := Ideal) .f32 (Cert.Spec.negBits bcast_S512_S512x1_0 bcast_S512_S1x512_1 bcast_S512x1_S512x512_0_1
          bcast_S1x512_S512x512_0_1 bcast_S_S512x512 (m ((c : Thread nD τ).loc main_arg1))) := by
    show StableHlo.after hostOps0 _ (Proc.devRef .tc main_v15) = _
    after_results
    rfl
  rw [e0, e1, Cert.Spec.uitofp_negBits]

end Cert.KernelIdeal.Val

end
-- ==== Proof.KI.ValOut.lean ====
import proofs.«121024_j55929064128529_1_alg».proof.Proof.KI.Defs
import proofs.«121024_j55929064128529_1_alg».proof.Proof.Spec
import proofs.«121024_j55929064128529_1_alg».proof.Proof.KI.Bounds
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.TcCoe Idealize.SL.Sem
open Cert.KernelIdeal Cert.KernelIdeal.Gen Cert.KernelIdeal.Hand
open ValueIdx

variable {F : FTy → Type} [FloatOps F]
variable (V : (c : Dev nD) → (b : Ref sig .tc) → Buf (Elt F) ((c : Thread nD τ).loc b))

/-- The last point. -/
theorem last_lt' : 127 < cfg1.N := by rw [show cfg1.N = 128 from N_1]; decide

/-- The last point, as a point of the grid. -/
abbrev tL : Fin cfg1.N := ⟨127, last_lt'⟩

/-- Both result windows sit at block (0, 0) at every point: the block's offsets in its 1×1 array are zero. -/
theorem off4_zero (t : Fin cfg1.N) : (fun a => win1_4.index t a * main_v17_0.ty.shape.size a) = fun _ => 0 :=
  funext fun a => by fin_cases a <;> rfl
theorem off5_zero (t : Fin cfg1.N) : (fun a => win1_5.index t a * main_v17_1.ty.shape.size a) = fun _ => 0 :=
  funext fun a => by fin_cases a <;> rfl

/-- The one write-back of the sum, at the last point, writes the accumulator as that point leaves it: block (0, 0) of
    a 1×1 array read through zero offsets is the array. -/
theorem flushed4_eq (c : Dev nD) (t : Fin cfg1.N) (hf : (cfg1.win 4).flush t = true) :
    (dat1 V c).flushed 4 t = ((cfg1.win 4).blk t).view.read (Elt F) (acc4 V c 127 last_lt') := by
  have hN : cfg1.N = 128 := N_1
  have h127 : t.val = 127 := by have := (flush1_4 t).mp hf; have := t.isLt; omega
  obtain rfl : t = tL := Fin.ext h127
  show (cfg1.win 4).cut (grid1.coords tL) ((dat1 V c).after 4 tL) = _
  rw [after1_4]
  exact (Memref.read_access_unit_zero (Elt F) main_v17_0 (off4_zero tL)
    (fun a => by rw [congrFun (off4_zero tL) a]; simp) (acc4 V c 127 last_lt')).symm

/-- The one write-back of the count, likewise. -/
theorem flushed5_eq (c : Dev nD) (t : Fin cfg1.N) (hf : (cfg1.win 5).flush t = true) :
    (dat1 V c).flushed 5 t = ((cfg1.win 5).blk t).view.read (Elt F) (acc5 V c 127 last_lt') := by
  have hN : cfg1.N = 128 := N_1
  have h127 : t.val = 127 := by have := (flush1_5 t).mp hf; have := t.isLt; omega
  obtain rfl : t = tL := Fin.ext h127
  show (cfg1.win 5).cut (grid1.coords tL) ((dat1 V c).after 5 tL) = _
  rw [after1_5]
  exact (Memref.read_access_unit_zero (Elt F) main_v17_1 (off5_zero tL)
    (fun a => by rw [congrFun (off5_zero tL) a]; simp) (acc5 V c 127 last_lt')).symm

/-- Region 1's two result arrays are 1×1 and are written back once, after the last point: they end holding the two
    accumulators as the last point leaves them. -/
theorem sum_out (c : Dev nD) : (dat1 V c).arrAt 4 cfg1.N = acc4 V c 127 last_lt' := by
  refine (dat1 V c).arrAt_eq_of_cover 4 (acc4 V c 127 last_lt') (flushed4_eq V c) fun i =>
    ⟨tL, (flush1_4 tL).mpr rfl, ?_⟩
  show i ∈ ((View.whole main_v17_0).slice (win1_4.rect tL)).set
  rw [View.set_slice_whole, Rect.mem_set_unit]
  intro a
  have h0 : (i 0 : Nat) < 1 := (i 0).isLt
  have h1 : (i 1 : Nat) < 1 := (i 1).isLt
  match a with
  | ⟨0, _⟩ =>
    show win1_4.index tL 0 * win1_4.size 0 ≤ (i 0 : Nat) ∧ (i 0 : Nat) < win1_4.index tL 0 * win1_4.size 0 + win1_4.xsize (grid1.coords tL) 0
    rw [show win1_4.index tL 0 * win1_4.size 0 = 0 from by decide +kernel, show win1_4.xsize (grid1.coords tL) 0 = 1 from by decide +kernel]; omega
  | ⟨1, _⟩ =>
    show win1_4.index tL 1 * win1_4.size 1 ≤ (i 1 : Nat) ∧ (i 1 : Nat) < win1_4.index tL 1 * win1_4.size 1 + win1_4.xsize (grid1.coords tL) 1
    rw [show win1_4.index tL 1 * win1_4.size 1 = 0 from by decide +kernel, show win1_4.xsize (grid1.coords tL) 1 = 1 from by decide +kernel]; omega
theorem cnt_out (c : Dev nD) : (dat1 V c).arrAt 5 cfg1.N = acc5 V c 127 last_lt' := by
  refine (dat1 V c).arrAt_eq_of_cover 5 (acc5 V c 127 last_lt') (flushed5_eq V c) fun i =>
    ⟨tL, (flush1_5 tL).mpr rfl, ?_⟩
  show i ∈ ((View.whole main_v17_1).slice (win1_5.rect tL)).set
  rw [View.set_slice_whole, Rect.mem_set_unit]
  intro a
  have h0 : (i 0 : Nat) < 1 := (i 0).isLt
  have h1 : (i 1 : Nat) < 1 := (i 1).isLt
  match a with
  | ⟨0, _⟩ =>
    show win1_5.index tL 0 * win1_5.size 0 ≤ (i 0 : Nat) ∧ (i 0 : Nat) < win1_5.index tL 0 * win1_5.size 0 + win1_5.xsize (grid1.coords tL) 0
    rw [show win1_5.index tL 0 * win1_5.size 0 = 0 from by decide +kernel, show win1_5.xsize (grid1.coords tL) 0 = 1 from by decide +kernel]; omega
  | ⟨1, _⟩ =>
    show win1_5.index tL 1 * win1_5.size 1 ≤ (i 1 : Nat) ∧ (i 1 : Nat) < win1_5.index tL 1 * win1_5.size 1 + win1_5.xsize (grid1.coords tL) 1
    rw [show win1_5.index tL 1 * win1_5.size 1 = 0 from by decide +kernel, show win1_5.xsize (grid1.coords tL) 1 = 1 from by decide +kernel]; omega

end Cert.KernelIdeal.Val

end
-- ==== Proof.KI.ValPart.lean ====
import proofs.«121024_j55929064128529_1_alg».proof.Proof.KI.Defs
import proofs.«121024_j55929064128529_1_alg».proof.Proof.Spec
import Idealize.ShloMosaic.Lib.Pipeline.Value
import Idealize.ShloMosaic.Lib.ValueIdx
import Idealize.ShloMosaic.Lib.ValueLayout
import Idealize.ShloMosaic.PureOps.Ideal.Laws

/-! The arithmetic of the triplet kernel's body on the extended reals: each value the body stores, read at an index,
is a plain sum over the block's coordinates. The layout operations (adding a unit axis, broadcasting along it) read
one operand entry per index; each lane sum is a `Fin`-indexed sum over the reduced axis. -/

noncomputable section

namespace Cert.KernelIdeal.Val

open Idealize.ShloMosaic Idealize.ShloMosaic.TcCoe Idealize.SL.Sem
open Cert.KernelIdeal Cert.KernelIdeal.Gen Cert.KernelIdeal.Hand
open ValueIdx

/-! ## Layout operations read at coordinates -/

section Layout
variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, j)`, the operand at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

end Layout

/-! ## The three lane sums read at coordinates -/

/-- The sum over the last axis of a `[64, 128, 128]` array, at `(a, p)`. -/
theorem red2_apply (v : FVec Ideal S64x128x128 .f32) (h : S64x128x128.Reduces [2] S64x128) (hφ : FKind.Formats .f32)
    (hacc : (0x00000000#32 : BitVec 32) = FKind.add.neutral .f32 hφ) (a : Fin 64) (p : Fin 128) :
    multiReduction (F := Ideal) .add [2] S64x128 v 0x00000000#32 h hφ hacc (ix2 a p) = ∑ n : Fin 128, v (ix3 a p n) :=
  (Ideal.multiReduction_add_single v _ h hφ hacc (ix2 a p)).trans
    (Finset.sum_congr rfl fun n _ => congrArg v (funext fun c => Fin.ext
      (match c with | ⟨0, _⟩ => rfl | ⟨1, _⟩ => rfl | ⟨2, _⟩ => rfl)))

/-- The sum over the last axis of a `[64, 128]` array, at `a`. -/
theorem red1_apply (v : FVec Ideal S64x128 .f32) (h : S64x128.Reduces [1] S64) (hφ : FKind.Formats .f32)
    (hacc : (0x00000000#32 : BitVec 32) = FKind.add.neutral .f32 hφ) (a : Fin 64) :
    multiReduction (F := Ideal) .add [1] S64 v 0x00000000#32 h hφ hacc (ix1 a) = ∑ p : Fin 128, v (ix2 a p) :=
  (Ideal.multiReduction_add_single v _ h hφ hacc (ix1 a)).trans
    (Finset.sum_congr rfl fun p _ => congrArg v (funext fun c => Fin.ext
      (match c with | ⟨0, _⟩ => rfl | ⟨1, _⟩ => rfl)))

/-- The sum over the first axis of a `[64, 1]` array, at its one index. -/
theorem red0_apply (v : FVec Ideal S64x1 .f32) (h : S64x1.Reduces [0] S1) (hφ : FKind.Formats .f32)
    (hacc : (0x00000000#32 : BitVec 32) = FKind.add.neutral .f32 hφ) (w : Fin 1) :
    multiReduction (F := Ideal) .add [0] S1 v 0x00000000#32 h hφ hacc (ix1 w) = ∑ a : Fin 64, v (ix2 a w) :=
  (Ideal.multiReduction_add_single v _ h hφ hacc (ix1 w)).trans
    (Finset.sum_congr rfl fun a _ => congrArg v (funext fun c => Fin.ext
      (match c with | ⟨0, _⟩ => rfl | ⟨1, _⟩ => rfl)))

/-! ## The broadcast operands and the mask product -/

/-- A `[64, 128]` array spread along a new last axis reads `(a, p)` at `(a, p, n)`. -/
theorem col_apply (x : Vec Ideal S64x128 .f32) (a : Fin 64) (p n : Fin 128) :
    broadcastTo S64x128x128 (shapeCast S64x128x1 (shapeCast S64x128 x shapeCasts_S64x128_S64x128) shapeCasts_S64x128_S64x128x1)
      broadcasts_S64x128x1_S64x128x128 (ix3 a p n) = x (ix2 a p) := by
  rw [shapeCast_self]
  exact (broadcastTo_ab1_abc_apply _ _ a p n).trans (shapeCast_ab_ab1_apply _ _ a p 0)

/-- A `[64, 128]` array spread along a new middle axis reads `(a, n)` at `(a, p, n)`. -/
theorem row_apply (x : Vec Ideal S64x128 .f32) (a : Fin 64) (p n : Fin 128) :
    broadcastTo S64x128x128 (shapeCast S64x1x128 (shapeCast S64x128 x shapeCasts_S64x128_S64x128) shapeCasts_S64x128_S64x1x128)
      broadcasts_S64x1x128_S64x128x128 (ix3 a p n) = x (ix2 a n) := by
  rw [shapeCast_self]
  exact (broadcastTo_a1c_abc_apply _ _ a p n).trans (shapeCast_ab_a1b_apply _ _ a 0 n)

/-- The product of the two spread masks at a triple. -/
theorem pay5_apply (x2 x3 : Vec Ideal S64x128 .f32) (a : Fin 64) (p n : Fin 128) :
    k1_pay5 (F := Ideal) x2 x3 (ix3 a p n) = x2 (ix2 a p) * x3 (ix2 a n) := by
  unfold k1_pay5
  show broadcastTo S64x128x128 _ _ (ix3 a p n) * broadcastTo S64x128x128 _ _ (ix3 a p n) = _
  rw [col_apply, row_apply]

/-- The masked hinge at a triple. -/
theorem hinge_apply (x0 x1 x2 x3 : Vec Ideal S64x128 .f32) (a : Fin 64) (p n : Fin 128) :
    mulf (maximumf (addf (subf
        (broadcastTo S64x128x128 (shapeCast S64x128x1 (shapeCast S64x128 x0 shapeCasts_S64x128_S64x128) shapeCasts_S64x128_S64x128x1) broadcasts_S64x128x1_S64x128x128)
        (broadcastTo S64x128x128 (shapeCast S64x1x128 (shapeCast S64x128 x1 shapeCasts_S64x128_S64x128) shapeCasts_S64x128_S64x1x128) broadcasts_S64x1x128_S64x128x128))
        (broadcast S64x128x128 (Scalar.ofBits (F := Ideal) .f32 0x3F800000#32)))
        (broadcast S64x128x128 (Scalar.ofBits (F := Ideal) .f32 0x00000000#32)))
      (k1_pay5 (F := Ideal) x2 x3) (ix3 a p n)
      = max ((x0 (ix2 a p) - x1 (ix2 a n)) + Cert.Spec.one) 0 * (x2 (ix2 a p) * x3 (ix2 a n)) := by
  rw [mulf_apply, maximumf_apply, addf_apply, subf_apply, broadcast_apply, broadcast_apply, col_apply, row_apply, pay5_apply]
  show max ((x0 (ix2 a p) - x1 (ix2 a n)) + Ideal.ofBits .f32 0x3F800000#32) (Ideal.ofBits .f32 0x00000000#32) * _ = _
  rw [Ideal.ofBits_zero_f32]

/-- The point's partial sum of masked hinges, as a sum over the block's 64 × 128 × 128 triples. -/
theorem pay6_eq (x0 x1 x2 x3 : Vec Ideal S64x128 .f32) (y : S1x1.Idx) :
    k1_pay6 (F := Ideal) x0 x1 x2 x3 y
      = ∑ a : Fin 64, ∑ p : Fin 128, ∑ n : Fin 128,
          max ((x0 (ix2 a p) - x1 (ix2 a n)) + Cert.Spec.one) 0 * (x2 (ix2 a p) * x3 (ix2 a n)) := by
  obtain ⟨u, w, rfl⟩ : ∃ (u w : Fin 1), y = ix2 u w := ⟨y 0, y 1, eq_ix2 y⟩
  unfold k1_pay6
  refine (shapeCast_a_1a_apply _ _ u w).trans ?_
  refine (red0_apply _ _ _ _ w).trans ?_
  refine Finset.sum_congr rfl fun a _ => ?_
  refine (shapeCast_a_a1_apply _ _ a w).trans ?_
  refine (red1_apply _ _ _ _ a).trans ?_
  refine Finset.sum_congr rfl fun p _ => ?_
  refine (red2_apply _ _ _ _ a p).trans ?_
  exact Finset.sum_congr rfl fun n _ => hinge_apply x0 x1 x2 x3 a p n

/-- The count's update: what the buffer held plus the number of set triples of the block. -/
theorem pay2_pay7_eq (x2 x3 : Vec Ideal S64x128 .f32) (v : Vec Ideal S1x1 .f32) (y : S1x1.Idx) :
    k1_pay2 (F := Ideal) (k1_pay7 x2 x3) v y
      = v y + ∑ a : Fin 64, ∑ p : Fin 128, ∑ n : Fin 128, x2 (ix2 a p) * x3 (ix2 a n) := by
  obtain ⟨u, w, rfl⟩ : ∃ (u w : Fin 1), y = ix2 u w := ⟨y 0, y 1, eq_ix2 y⟩
  unfold k1_pay2 k1_pay7
  rw [addf_apply, shapeCast_self]
  refine congrArg (v (ix2 u w) + ·) ?_
  refine (shapeCast_a_1a_apply _ _ u w).trans ?_
  refine (red0_apply _ _ _ _ w).trans ?_
  refine Finset.sum_congr rfl fun a _ => ?_
  refine (shapeCast_a_a1_apply _ _ a w).trans ?_
  refine (red1_apply _ _ _ _ a).trans ?_
  refine Finset.sum_congr rfl fun p _ => ?_
  refine (red2_apply _ _ _ _ a p).trans ?_
  exact Finset.sum_congr rfl fun n _ => pay5_apply x2 x3 a p n

/-- The sum's update: what the buffer held plus the point's partial sum. -/
theorem pay1_eq (s v : Vec Ideal S1x1 .f32) (y : S1x1.Idx) : k1_pay1 (F := Ideal) s v y = v y + s y := by
  unfold k1_pay1
  rw [addf_apply, shapeCast_self]

/-- The reset values are zero. -/
theorem pay3_eq (y : S1x1.Idx) : k1_pay3 (F := Ideal) y = 0 := by
  unfold k1_pay3
  rw [broadcast_apply]
  exact Ideal.ofBits_zero_f32
theorem pay4_eq (y : S1x1.Idx) : k1_pay4 (F := Ideal) y = 0 := by
  unfold k1_pay4
  rw [broadcast_apply]
  exact Ideal.ofBits_zero_f32

end Cert.KernelIdeal.Val

end
-- ==== Proof.Sums.lean ====
import proofs.«121024_j55929064128529_1_alg».proof.Proof.Spec
import Mathlib.Algebra.BigOperators.Fin
import Mathlib.Algebra.BigOperators.Group.Finset.Basic
import Mathlib.Data.Fintype.BigOperators
import Mathlib.Data.EReal.Basic

/-! Two facts about sums on the extended reals (an additive commutative monoid: no finiteness is needed).
The running sum kept across the grid is the sum of the points' parts; and summing, over the 8 × 4 × 4 grid of blocks, each
block's 64 × 128 × 128 triples enumerates every triple of 512³ exactly once. -/

noncomputable section

namespace Cert.Spec

/-- A chain `c 0 = 0 + g 0`, `c (n+1) = c n + g (n+1)` is the sum of the parts. -/
theorem chain_eq_sum (g c : ℕ → EReal) (h0 : c 0 = 0 + g 0) (hs : ∀ n, c (n + 1) = c n + g (n + 1)) (n : ℕ) :
    c n = ∑ i ∈ Finset.range (n + 1), g i := by
  induction n with
  | zero => rw [h0, zero_add, Finset.sum_range_one]
  | succ k ih => rw [hs, ih, Finset.sum_range_succ _ (k + 1)]

/-- Grid point `t` of the 8 × 4 × 4 grid (last axis fastest) is block `(t / 16, t / 4 % 4, t % 4)`; the array coordinates of
    a block's local coordinate along each of the three axes. -/
def pa (t : Fin 128) (a : Fin 64) : Fin 512 := ⟨64 * (t.val / 16) + a.val, by have := t.isLt; have := a.isLt; omega⟩
def pp (t : Fin 128) (p : Fin 128) : Fin 512 := ⟨128 * (t.val / 4 % 4) + p.val, by have := p.isLt; omega⟩
def pn (t : Fin 128) (n : Fin 128) : Fin 512 := ⟨128 * (t.val % 4) + n.val, by have := n.isLt; omega⟩

/-- A grid point with a local triple, against the array triple it names: quotients by the block extents give back the
    block `16 · (A / 64) + 4 · (P / 128) + N / 128`, remainders give back the local coordinates. -/
def tile : Fin 128 × Fin 64 × Fin 128 × Fin 128 ≃ Fin 512 × Fin 512 × Fin 512 where
  toFun x := (pa x.1 x.2.1, pp x.1 x.2.2.1, pn x.1 x.2.2.2)
  invFun y :=
    (⟨16 * (y.1.val / 64) + 4 * (y.2.1.val / 128) + y.2.2.val / 128, by
        have := y.1.isLt; have := y.2.1.isLt; have := y.2.2.isLt; omega⟩,
      ⟨y.1.val % 64, Nat.mod_lt _ (by norm_num)⟩,
      ⟨y.2.1.val % 128, Nat.mod_lt _ (by norm_num)⟩,
      ⟨y.2.2.val % 128, Nat.mod_lt _ (by norm_num)⟩)
  left_inv := by
    rintro ⟨t, a, p, n⟩
    have := t.isLt; have := a.isLt; have := p.isLt; have := n.isLt
    simp only [pa, pp, pn, Prod.mk.injEq, Fin.ext_iff]
    refine ⟨?_, ?_, ?_, ?_⟩ <;> omega
  right_inv := by
    rintro ⟨A, P, N⟩
    have := A.isLt; have := P.isLt; have := N.isLt
    simp only [pa, pp, pn, Prod.mk.injEq, Fin.ext_iff]
    refine ⟨?_, ?_, ?_⟩ <;> omega

/-- The blocks tile the cube of triples. -/
theorem blocks_sum (f : Fin 512 → Fin 512 → Fin 512 → EReal) :
    ∑ t : Fin 128, ∑ a : Fin 64, ∑ p : Fin 128, ∑ n : Fin 128, f (pa t a) (pp t p) (pn t n)
      = ∑ A : Fin 512, ∑ P : Fin 512, ∑ N : Fin 512, f A P N := by
  -- both sides as one sum over a product type, then the sum is carried along the bijection
  have hL : ∑ t : Fin 128, ∑ a : Fin 64, ∑ p : Fin 128, ∑ n : Fin 128, f (pa t a) (pp t p) (pn t n)
      = ∑ x : Fin 128 × Fin 64 × Fin 128 × Fin 128, f (pa x.1 x.2.1) (pp x.1 x.2.2.1) (pn x.1 x.2.2.2) := by
    simp only [Fintype.sum_prod_type]
  have hR : ∑ A : Fin 512, ∑ P : Fin 512, ∑ N : Fin 512, f A P N
      = ∑ y : Fin 512 × Fin 512 × Fin 512, f y.1 y.2.1 y.2.2 := by
    simp only [Fintype.sum_prod_type]
  rw [hL, hR]
  exact Fintype.sum_equiv tile _ _ (fun _ => rfl)

end Cert.Spec

end
-- ==== Proof.KI.ValAcc.lean ====
import proofs.«121024_j55929064128529_1_alg».proof.Proof.KI.Defs
import proofs.«121024_j55929064128529_1_alg».proof.Proof.Spec
import proofs.«121024_j55929064128529_1_alg».proof.Proof.KI.ValPart
import proofs.«121024_j55929064128529_1_alg».proof.Proof.Sums
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.TcCoe Idealize.SL.Sem
open Cert.KernelIdeal Cert.KernelIdeal.Gen Cert.KernelIdeal.Hand
open ValueIdx

/-! The two accumulators after the last grid point, as sums over all 512³ triples: each point adds its block's partial sum
(an ordered chain from zero, which on the extended reals is the plain sum), a block's entries are the arrays' entries at the
block's offset, and the 128 blocks tile the cube of triples. -/

variable (V : (c : Dev nD) → (b : Ref sig .tc) → Buf (Elt Ideal) ((c : Thread nD τ).loc b))

/-- The last point. -/
theorem last_lt : 127 < cfg1.N := by rw [show cfg1.N = 128 from N_1]; decide

/-! ## A block's entries are the array's entries at the block's offset -/

/-- The printed index maps over the grid (last axis fastest): the first two windows and the last two read block row
    `t / 16`; windows 0 and 2 read block column `t / 4 % 4`, windows 1 and 3 block column `t % 4`. -/
theorem idx_facts : ∀ t : Fin cfg1.N,
    win1_0.index t (0 : Fin 2) = t.val / 16 ∧ win1_0.index t (1 : Fin 2) = t.val / 4 % 4
    ∧ win1_1.index t (0 : Fin 2) = t.val / 16 ∧ win1_1.index t (1 : Fin 2) = t.val % 4
    ∧ win1_2.index t (0 : Fin 2) = t.val / 16 ∧ win1_2.index t (1 : Fin 2) = t.val / 4 % 4
    ∧ win1_3.index t (0 : Fin 2) = t.val / 16 ∧ win1_3.index t (1 : Fin 2) = t.val % 4 :=
  (by decide +kernel : ∀ t : Fin grid1.N, _)

/-- Window 0 at point `t`, local `(a, p)`: the distance matrix at (anchor, positive). -/
theorem blk0_apply (c : Dev nD) (t : Fin cfg1.N) (s : Fin 128) (hs : s.val = t.val) (a : Fin 64) (p : Fin 128) :
    (iblk1 (F := Ideal) V c 0 t : Vec Ideal S64x128 .f32) (ix2 a p)
      = V c main_v16 (ix2 (Cert.Spec.pa s a) (Cert.Spec.pp s p)) := by
  obtain ⟨e0, e1, -⟩ := idx_facts t
  unfold iblk1
  rw [View.read_apply]
  show V c main_v16 _ = V c main_v16 _
  congr 1
  funext ax
  apply Fin.ext
  match ax with
  | ⟨0, _⟩ => show win1_0.index t 0 * 64 + 1 * a.val = 64 * (s.val / 16) + a.val; rw [e0, hs]; omega
  | ⟨1, _⟩ => show win1_0.index t 1 * 128 + 1 * p.val = 128 * (s.val / 4 % 4) + p.val; rw [e1, hs]; omega

/-- Window 1 at point `t`, local `(a, n)`: the distance matrix at (anchor, negative). -/
theorem blk1_apply (c : Dev nD) (t : Fin cfg1.N) (s : Fin 128) (hs : s.val = t.val) (a : Fin 64) (n : Fin 128) :
    (iblk1 (F := Ideal) V c 1 t : Vec Ideal S64x128 .f32) (ix2 a n)
      = V c main_v16 (ix2 (Cert.Spec.pa s a) (Cert.Spec.pn s n)) := by
  obtain ⟨-, -, e0, e1, -⟩ := idx_facts t
  unfold iblk1
  rw [View.read_apply]
  show V c main_v16 _ = V c main_v16 _
  congr 1
  funext ax
  apply Fin.ext
  match ax with
  | ⟨0, _⟩ => show win1_1.index t 0 * 64 + 1 * a.val = 64 * (s.val / 16) + a.val; rw [e0, hs]; omega
  | ⟨1, _⟩ => show win1_1.index t 1 * 128 + 1 * n.val = 128 * (s.val % 4) + n.val; rw [e1, hs]; omega

/-- Window 2 at point `t`, local `(a, p)`: the positive mask at (anchor, positive). -/
theorem blk2_apply (c : Dev nD) (t : Fin cfg1.N) (s : Fin 128) (hs : s.val = t.val) (a : Fin 64) (p : Fin 128) :
    (iblk1 (F := Ideal) V c 2 t : Vec Ideal S64x128 .f32) (ix2 a p)
      = V c main_v12 (ix2 (Cert.Spec.pa s a) (Cert.Spec.pp s p)) := by
  obtain ⟨-, -, -, -, e0, e1, -⟩ := idx_facts t
  unfold iblk1
  rw [View.read_apply]
  show V c main_v12 _ = V c main_v12 _
  congr 1
  funext ax
  apply Fin.ext
  match ax with
  | ⟨0, _⟩ => show win1_2.index t 0 * 64 + 1 * a.val = 64 * (s.val / 16) + a.val; rw [e0, hs]; omega
  | ⟨1, _⟩ => show win1_2.index t 1 * 128 + 1 * p.val = 128 * (s.val / 4 % 4) + p.val; rw [e1, hs]; omega

/-- Window 3 at point `t`, local `(a, n)`: the negative mask at (anchor, negative). -/
theorem blk3_apply (c : Dev nD) (t : Fin cfg1.N) (s : Fin 128) (hs : s.val = t.val) (a : Fin 64) (n : Fin 128) :
    (iblk1 (F := Ideal) V c 3 t : Vec Ideal S64x128 .f32) (ix2 a n)
      = V c main_v15 (ix2 (Cert.Spec.pa s a) (Cert.Spec.pn s n)) := by
  obtain ⟨-, -, -, -, -, -, e0, e1⟩ := idx_facts t
  unfold iblk1
  rw [View.read_apply]
  show V c main_v15 _ = V c main_v15 _
  congr 1
  funext ax
  apply Fin.ext
  match ax with
  | ⟨0, _⟩ => show win1_3.index t 0 * 64 + 1 * a.val = 64 * (s.val / 16) + a.val; rw [e0, hs]; omega
  | ⟨1, _⟩ => show win1_3.index t 1 * 128 + 1 * n.val = 128 * (s.val % 4) + n.val; rw [e1, hs]; omega

/-! ## One point's update, and the chain over the points -/

/-- The masked hinge of an array triple, and the mask product of an array triple. -/
def hingeTerm (d ps ng : Fin 512 → Fin 512 → EReal) (A P N : Fin 512) : EReal :=
  max ((d A P - d A N) + Cert.Spec.one) 0 * (ps A P * ng A N)
def maskTerm (ps ng : Fin 512 → Fin 512 → EReal) (A P N : Fin 512) : EReal := ps A P * ng A N

/-- The sum of `f` over the triples of block `s`. -/
def blockSum (f : Fin 512 → Fin 512 → Fin 512 → EReal) (s : Fin 128) : EReal :=
  ∑ a : Fin 64, ∑ p : Fin 128, ∑ n : Fin 128, f (Cert.Spec.pa s a) (Cert.Spec.pp s p) (Cert.Spec.pn s n)

/-- The block sums along the points, as a sequence on the naturals (zero past the grid). -/
def pointSum (f : Fin 512 → Fin 512 → Fin 512 → EReal) (n : ℕ) : EReal :=
  if h : n < 128 then blockSum f ⟨n, h⟩ else 0

/-- The sum's update at point `t`: what the buffer held plus the block's masked hinges. -/
theorem step4 (c : Dev nD) (d ps ng : Fin 512 → Fin 512 → EReal)
    (hd : ∀ i j : Fin 512, V c main_v16 (ix2 i j) = d i j)
    (hp : ∀ a p : Fin 512, V c main_v12 (ix2 a p) = ps a p)
    (hn : ∀ a n : Fin 512, V c main_v15 (ix2 a n) = ng a n)
    (t : Fin cfg1.N) (s : Fin 128) (hs : s.val = t.val) (v : Vec Ideal S1x1 .f32) (y : S1x1.Idx) :
    k1_pay1 (F := Ideal) (part4 V c t) v y = v y + blockSum (hingeTerm d ps ng) s := by
  rw [pay1_eq]
  refine congrArg (v y + ·) ?_
  unfold part4
  refine (pay6_eq (iblk1 V c 0 t) (iblk1 V c 1 t) (iblk1 V c 2 t) (iblk1 V c 3 t) y).trans ?_
  refine Finset.sum_congr rfl fun a _ => Finset.sum_congr rfl fun p _ => Finset.sum_congr rfl fun n _ => ?_
  rw [blk0_apply V c t s hs a p, blk1_apply V c t s hs a n, blk2_apply V c t s hs a p, blk3_apply V c t s hs a n,
    hd, hd, hp, hn]
  rfl

/-- The count's update at point `t`: what the buffer held plus the block's mask products. -/
theorem step5 (c : Dev nD) (ps ng : Fin 512 → Fin 512 → EReal)
    (hp : ∀ a p : Fin 512, V c main_v12 (ix2 a p) = ps a p)
    (hn : ∀ a n : Fin 512, V c main_v15 (ix2 a n) = ng a n)
    (t : Fin cfg1.N) (s : Fin 128) (hs : s.val = t.val) (v : Vec Ideal S1x1 .f32) (y : S1x1.Idx) :
    k1_pay2 (F := Ideal) (part5 V c t) v y = v y + blockSum (maskTerm ps ng) s := by
  unfold part5
  refine (pay2_pay7_eq (iblk1 V c 2 t) (iblk1 V c 3 t) v y).trans ?_
  refine congrArg (v y + ·) ?_
  refine Finset.sum_congr rfl fun a _ => Finset.sum_congr rfl fun p _ => Finset.sum_congr rfl fun n _ => ?_
  rw [blk2_apply V c t s hs a p, blk3_apply V c t s hs a n, hp, hn]
  rfl

/-- A point of the grid as a number below 128. -/
theorem lt128 {n : ℕ} (h : n < cfg1.N) : n < 128 := by rw [show cfg1.N = 128 from N_1] at h; exact h

/-- The running sum after point `n` is the sum of the blocks' sums up to `n`. -/
theorem acc4_sum (c : Dev nD) (d ps ng : Fin 512 → Fin 512 → EReal)
    (hd : ∀ i j : Fin 512, V c main_v16 (ix2 i j) = d i j)
    (hp : ∀ a p : Fin 512, V c main_v12 (ix2 a p) = ps a p)
    (hn : ∀ a n : Fin 512, V c main_v15 (ix2 a n) = ng a n) (y : S1x1.Idx) :
    ∀ (n : ℕ) (h : n < cfg1.N),
      acc4 (F := Ideal) V c n h y = ∑ i ∈ Finset.range (n + 1), pointSum (hingeTerm d ps ng) i
  | 0, h => by
    show k1_pay1 (F := Ideal) (part4 V c ⟨0, h⟩) (k1_pay3 (F := Ideal)) y = _
    rw [step4 V c d ps ng hd hp hn ⟨0, h⟩ ⟨0, lt128 h⟩ rfl, pay3_eq, zero_add, Finset.sum_range_one]
    unfold pointSum
    rw [dif_pos (lt128 h)]
  | n + 1, h => by
    show k1_pay1 (F := Ideal) (part4 V c ⟨n + 1, h⟩) (acc4 V c n (Nat.lt_of_succ_lt h)) y = _
    rw [step4 V c d ps ng hd hp hn ⟨n + 1, h⟩ ⟨n + 1, lt128 h⟩ rfl, acc4_sum c d ps ng hd hp hn y n,
      Finset.sum_range_succ _ (n + 1)]
    refine congrArg (_ + ·) ?_
    unfold pointSum
    rw [dif_pos (lt128 h)]

/-- The running count after point `n`, likewise. -/
theorem acc5_sum (c : Dev nD) (ps ng : Fin 512 → Fin 512 → EReal)
    (hp : ∀ a p : Fin 512, V c main_v12 (ix2 a p) = ps a p)
    (hn : ∀ a n : Fin 512, V c main_v15 (ix2 a n) = ng a n) (y : S1x1.Idx) :
    ∀ (n : ℕ) (h : n < cfg1.N),
      acc5 (F := Ideal) V c n h y = ∑ i ∈ Finset.range (n + 1), pointSum (maskTerm ps ng) i
  | 0, h => by
    show k1_pay2 (F := Ideal) (part5 V c ⟨0, h⟩) (k1_pay4 (F := Ideal)) y = _
    rw [step5 V c ps ng hp hn ⟨0, h⟩ ⟨0, lt128 h⟩ rfl, pay4_eq, zero_add, Finset.sum_range_one]
    unfold pointSum
    rw [dif_pos (lt128 h)]
  | n + 1, h => by
    show k1_pay2 (F := Ideal) (part5 V c ⟨n + 1, h⟩) (acc5 V c n (Nat.lt_of_succ_lt h)) y = _
    rw [step5 V c ps ng hp hn ⟨n + 1, h⟩ ⟨n + 1, lt128 h⟩ rfl, acc5_sum c ps ng hp hn y n,
      Finset.sum_range_succ _ (n + 1)]
    refine congrArg (_ + ·) ?_
    unfold pointSum
    rw [dif_pos (lt128 h)]

/-- The points' sums over the whole grid tile the cube of triples. -/
theorem pointSum_total (f : Fin 512 → Fin 512 → Fin 512 → EReal) :
    ∑ i ∈ Finset.range 128, pointSum f i = ∑ A : Fin 512, ∑ P : Fin 512, ∑ N : Fin 512, f A P N := by
  rw [Finset.sum_range, ← Cert.Spec.blocks_sum f]
  refine Finset.sum_congr rfl fun s _ => ?_
  unfold pointSum
  rw [dif_pos s.isLt]
  rfl

/-- The running sum after the last point is the masked sum of hinges over all triples, of the three arrays region 1 reads. -/
theorem acc4_total (c : Dev nD) (d ps ng : Fin 512 → Fin 512 → EReal)
    (hd : ∀ i j : Fin 512, V c main_v16 (ix2 i j) = d i j)
    (hp : ∀ a p : Fin 512, V c main_v12 (ix2 a p) = ps a p)
    (hn : ∀ a n : Fin 512, V c main_v15 (ix2 a n) = ng a n) (y : S1x1.Idx) :
    acc4 (F := Ideal) V c 127 last_lt y = ∑ a : Fin 512, ∑ p : Fin 512, ∑ n : Fin 512,
      max ((d a p - d a n) + Cert.Spec.one) 0 * (ps a p * ng a n) :=
  (acc4_sum V c d ps ng hd hp hn y 127 last_lt).trans (pointSum_total (hingeTerm d ps ng))

/-- The running count after the last point is the number of valid triples. -/
theorem acc5_total (c : Dev nD) (ps ng : Fin 512 → Fin 512 → EReal)
    (hp : ∀ a p : Fin 512, V c main_v12 (ix2 a p) = ps a p)
    (hn : ∀ a n : Fin 512, V c main_v15 (ix2 a n) = ng a n) (y : S1x1.Idx) :
    acc5 (F := Ideal) V c 127 last_lt y = ∑ a : Fin 512, ∑ p : Fin 512, ∑ n : Fin 512, ps a p * ng a n :=
  (acc5_sum V c ps ng hp hn y 127 last_lt).trans (pointSum_total (maskTerm ps ng))

end Cert.KernelIdeal.Val

end
-- ==== Proof.KI.ValFinal.lean ====
import proofs.«121024_j55929064128529_1_alg».proof.Proof.KI.Defs
import proofs.«121024_j55929064128529_1_alg».proof.Proof.Spec
import proofs.«121024_j55929064128529_1_alg».proof.Proof.KI.Bounds
import proofs.«121024_j55929064128529_1_alg».proof.Proof.KI.ValDistArr
import proofs.«121024_j55929064128529_1_alg».proof.Proof.KI.ValMask
import proofs.«121024_j55929064128529_1_alg».proof.Proof.KI.ValOut
import proofs.«121024_j55929064128529_1_alg».proof.Proof.KI.ValAcc
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal.Laws

noncomputable section

namespace Cert.KernelIdeal.Val

open Idealize.ShloMosaic Idealize.ShloMosaic.TcCoe Idealize.SL.Sem
open Cert.KernelIdeal Cert.KernelIdeal.Gen Cert.KernelIdeal.Hand
open ValueIdx

variable (m : (ℓ : Loc nD τ sig) → Buf (Elt Ideal) ℓ) (ρ : Dev nD → PrngReg)

/-! ## The printed clamp constant, and a 1×1 array read as a scalar -/

/-- The word the program prints for the count's clamp encodes the extended real one. -/
theorem final_one_word : Ideal.ofBits .f32 0x3F800000#32 = (1 : EReal) := by
  simp [Ideal.ofBits, Ideal.ieee, -EReal.coe_mul]; norm_num

/-- A 1×1 array cast to the scalar shape reads its one entry: each shape has a single row-major position. -/
theorem final_scalar_of_1x1 {α : Type} (x : S1x1.Idx → α) (h : S1x1.ShapeCasts S_) (y : S_.Idx) (k : S1x1.Idx) :
    shapeCast S_ x h y = x k := by
  refine shapeCast_apply x h y k ?_
  have h1 : (S1x1.rowMajor k).val < 1 := lt_of_lt_of_eq (S1x1.rowMajor k).isLt (by decide)
  have h0 : (S_.rowMajor y).val < 1 := lt_of_lt_of_eq (S_.rowMajor y).isLt (by decide)
  omega

/-! ## The last host stretch over any contents -/

/-- The five host operations after region 1, read at the returned buffer, over ANY buffer contents `X`: the sum array
    cast to a scalar, divided by the maximum of the count array cast to a scalar and the printed constant. -/
theorem final_tail (X : Valuation τ sig (Elt Ideal)) :
    StableHlo.after hostOps2 X (Proc.devRef .tc main_v21)
      = Host.divf (shapeCast S_ (X (Proc.devRef .tc main_v17_0) : Vec Ideal S1x1 .f32) shapeCasts_S1x1_S_)
          (maximumf (shapeCast S_ (X (Proc.devRef .tc main_v17_1) : Vec Ideal S1x1 .f32) shapeCasts_S1x1_S_)
            (constant (F := Ideal) S_ .f32 0x3F800000#32)) := by
  after_results
  rfl

/-- So when the sum array's entry is `s` and the count array's entry is `n`, the returned scalar is `s` divided by
    `max n 1`: the host quotient is the extended reals' division, the host maximum their `max`, and the constant is one. -/
theorem final_quotient (X : Valuation τ sig (Elt Ideal)) (s n : EReal)
    (hs : (X (Proc.devRef .tc main_v17_0) : Vec Ideal S1x1 .f32) (ix2 0 0) = s)
    (hn : (X (Proc.devRef .tc main_v17_1) : Vec Ideal S1x1 .f32) (ix2 0 0) = n) (y : S_.Idx) :
    (StableHlo.after hostOps2 X (Proc.devRef .tc main_v21) : Vec Ideal S_ .f32) y = Ideal.div s (max n 1) := by
  rw [final_tail X]
  show Ideal.div (shapeCast S_ _ shapeCasts_S1x1_S_ y) (max (shapeCast S_ _ shapeCasts_S1x1_S_ y) (Ideal.ofBits .f32 0x3F800000#32)) = _
  rw [final_scalar_of_1x1 _ _ y (ix2 0 0), final_scalar_of_1x1 _ _ y (ix2 0 0), hs, hn, final_one_word]

/-! ## The two accumulated entries at region 1's exit -/

/-- The sum array at region 1's exit holds the masked sum of hinges over all triples: it is the running sum after the
    last point, and the three arrays region 1 reads are the distance matrix and the two masks of the arguments. -/
theorem final_sum_entry (c : Dev nD) :
    (W3 (F := Ideal) m ρ c (Proc.devRef .tc main_v17_0) : Vec Ideal S1x1 .f32) (ix2 0 0)
      = Cert.Spec.total (Cert.Spec.dist (Cert.Spec.arr2 (m ((c : Thread nD τ).loc main_arg0))))
          (Cert.Spec.pos (Cert.Spec.arr1 (m ((c : Thread nD τ).loc main_arg1))))
          (Cert.Spec.neg (Cert.Spec.arr1 (m ((c : Thread nD τ).loc main_arg1)))) := by
  rw [W3_sum m ρ c, sum_out (V2 m ρ) c]
  unfold Cert.Spec.total Cert.Spec.hinge
  exact acc4_total (V2 m ρ) c _ _ _ (dist_array m ρ c) (pos_array m ρ c) (neg_array m ρ c) _

/-- The count array at region 1's exit holds the number of valid triples, likewise. -/
theorem final_count_entry (c : Dev nD) :
    (W3 (F := Ideal) m ρ c (Proc.devRef .tc main_v17_1) : Vec Ideal S1x1 .f32) (ix2 0 0)
      = Cert.Spec.count (Cert.Spec.pos (Cert.Spec.arr1 (m ((c : Thread nD τ).loc main_arg1))))
          (Cert.Spec.neg (Cert.Spec.arr1 (m ((c : Thread nD τ).loc main_arg1)))) := by
  rw [W3_cnt m ρ c, cnt_out (V2 m ρ) c]
  unfold Cert.Spec.count
  exact acc5_total (V2 m ρ) c _ _ (pos_array m ρ c) (neg_array m ρ c) _

/-- The kernel's program computes the loss: the last host stretch divides the accumulated sum by the accumulated count
    clamped at one. -/
theorem kernel_is_loss (c : Dev nD) :
    W4 (F := Ideal) m ρ c (Proc.devRef .tc main_v21)
      = fun _ => Cert.Spec.loss (Cert.Spec.arr2 (m ((c : Thread nD τ).loc main_arg0))) (Cert.Spec.arr1 (m ((c : Thread nD τ).loc main_arg1))) := by
  funext y
  unfold Cert.Spec.loss
  exact final_quotient (W3 m ρ c) _ _ (final_sum_entry m ρ c) (final_count_entry m ρ c) y

end Cert.KernelIdeal.Val

end
-- ==== Proof.Ref.Dist.lean ====
import proofs.«121024_j55929064128529_1_alg».proof.Proof.Gen.ReferenceIdeal.Read
import proofs.«121024_j55929064128529_1_alg».proof.Proof.Spec
import proofs.«121024_j55929064128529_1_alg».proof.Proof.Mask
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Idealize.ShloMosaic Idealize.ShloMosaic.TcCoe Idealize.SL.Sem
open Cert.ReferenceIdeal Cert.ReferenceIdeal.Gen Cert.ReferenceIdeal.Read
open ValueIdx

/-- The row-norm broadcast along rows reads row `i`: its summation index at `(i, j)`, `k` is `(i, k)`. -/
theorem idx_rowNorm (i j k : Fin 512) : idx_main_v1 (idx_main_v2 (idx_main_v4 (ix2 i j))) k = ix2 i k :=
  funext fun a => Fin.ext (by match a with | ⟨0, _⟩ => rfl | ⟨1, _⟩ => rfl)

/-- The row-norm broadcast along columns reads row `j`: its summation index at `(i, j)`, `k` is `(j, k)`. -/
theorem idx_colNorm (i j k : Fin 512) : idx_main_v1 (idx_main_v3 (idx_main_v5 (ix2 i j))) k = ix2 j k :=
  funext fun a => Fin.ext (by match a with | ⟨0, _⟩ => rfl | ⟨1, _⟩ => rfl)

/-- The product's left factor at `(i, j)`, `k` is entry `(i, k)`. -/
theorem idx_dotL (i j k : Fin 512) : lidx_main_v8 (ix2 i j) k = ix2 i k :=
  funext fun a => Fin.ext (by match a with | ⟨0, _⟩ => rfl | ⟨1, _⟩ => rfl)

/-- The product's right factor is the transpose: at `(i, j)`, `k` it reads entry `(j, k)`. -/
theorem idx_dotR (i j k : Fin 512) : idx_main_v7 (ridx_main_v8 (ix2 i j) k) = ix2 j k :=
  funext fun a => Fin.ext (by match a with | ⟨0, _⟩ => rfl | ⟨1, _⟩ => rfl)

/-- The reference's distance matrix (operation %11), read at an index, is the Gram-form squared distance. -/
theorem ref_dist (x0 : (⟨S512x512, .f32⟩ : BufTy).Contents (Elt Ideal)) (i j : Fin 512) :
    val_main_v11 (F := Ideal) x0 (ix2 i j) = Cert.Spec.dist (Cert.Spec.arr2 x0) i j := by
  rw [val_main_v11_apply, val_main_v6_apply, val_main_v4_apply, val_main_v2_apply, val_main_v1_apply,
    val_main_v5_apply, val_main_v3_apply, val_main_v1_apply, val_main_v10_apply, val_main_v9_apply,
    val_main_cst_0_apply, val_main_v8_apply, val_main_cst_apply]
  simp only [val_main_v0_apply, val_main_v7_apply, idx_rowNorm, idx_colNorm, idx_dotL, idx_dotR,
    Ideal.addf_def, Ideal.subf_def, Ideal.mulf_def, Ideal.ofBits_def, Ideal.ofBits_zero_f32, zero_add]
  rfl

end Cert.ReferenceIdeal.RefValue

end
-- ==== Proof.Ref.Count.lean ====
import proofs.«121024_j55929064128529_1_alg».proof.Proof.Gen.ReferenceIdeal.Read
import proofs.«121024_j55929064128529_1_alg».proof.Proof.Spec
import proofs.«121024_j55929064128529_1_alg».proof.Proof.Mask
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce
import Idealize.ShloMosaic.Lib.StableHlo.Predicate
import Mathlib.Data.EReal.Basic
import Mathlib.Algebra.BigOperators.Fin
import Mathlib.Data.Fintype.BigOperators

noncomputable section

namespace Cert.ReferenceIdeal.RefValue

open Idealize.ShloMosaic Idealize.ShloMosaic.TcCoe Idealize.SL.Sem
open Cert.ReferenceIdeal Cert.ReferenceIdeal.Gen Cert.ReferenceIdeal.Read
open ValueIdx

/-- A rank-3 index set is the product of its three coordinate ranges, so a sum over it is the triple sum over the
    coordinates. -/
def idxEquiv3 {n0 n1 n2 : Nat} : (⟨3, ![n0, n1, n2]⟩ : Shape).Idx ≃ Fin n0 × Fin n1 × Fin n2 where
  toFun i := (i 0, i 1, i 2)
  invFun q := ix3 q.1 q.2.1 q.2.2
  left_inv i := (eq_ix3 i).symm
  right_inv _ := rfl
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- The sum-reduction of a widened mask over EVERY axis, into the scalar shape, is the number of set bits, when that
    number is below 2³² (word addition commutes and associates, and no partial sum wraps). -/
theorem toNat_reduce_count_all {s : Shape} {axes : List (Fin s.rank)} (mask : IVec s 1) (hw : 1 < 32)
    (h : s.ReducesTo axes ⟨0, ![]⟩) {u : Shape} (hu : 0 < u.numel) (j : (⟨0, ![]⟩ : Shape).Idx)
    (hb : (∑ i : s.Idx, if mask i = 1#1 then 1 else 0) < 2 ^ 32) :
    (Host.reduce IntOp.addi (extui 32 mask hw) (constantI u 32 0#32) h hu j).toNat
      = ∑ i : s.Idx, if mask i = 1#1 then 1 else 0 := by
  classical
  rw [Host.reduce_eq_fold]
  have hall : (Finset.univ.filter fun i : s.Idx => h.drop i = j) = Finset.univ :=
    Finset.filter_true_of_mem fun i _ => funext fun b => b.elim0
  have hval : ∀ i, (extui 32 mask hw i).toNat = if mask i = 1#1 then 1 else 0 :=
    fun i => StableHlo.Predicate.toNat_setWidth_bit (mask i)
  have hsum : ∑ i : s.Idx, (extui 32 mask hw i).toNat = ∑ i : s.Idx, if mask i = 1#1 then 1 else 0 :=
    Finset.sum_congr rfl fun i _ => hval i
  rw [hall]
  show (Finset.fold IntOp.addi 0#32 (extui 32 mask hw) Finset.univ).toNat = _
  rw [StableHlo.Predicate.toNat_fold_addi _ _ (by rw [hsum]; exact hb), hsum]

/-- The signed maximum with one of a word whose value is below 2³¹, read signed, is the maximum of the value with one. -/
theorem toInt_maxsi_one (v : BitVec 32) (hv : v.toNat < 2 ^ 31) :
    (IntOp.maxsi v 1#32).toInt = ((max v.toNat 1 : ℕ) : ℤ) := by
  have hvi : v.toInt = (v.toNat : ℤ) := StableHlo.Predicate.toInt_eq_toNat_of_lt hv
  have h1 : (1#32 : BitVec 32).toInt = 1 := by decide
  unfold IntOp.maxsi
  split <;> rename_i hc <;> simp only [BitVec.slt, h1, hvi, decide_eq_true_eq] at hc
  · rw [hvi]; congr 1; omega
  · rw [h1]; have : max v.toNat 1 = 1 := by omega
    rw [this]; rfl

/-- The reference's triple mask (operation %30) read at a triple: set iff `(a, p)` is a valid positive pair and `(a, n)` a valid negative pair. -/
theorem ref_mask (x1 : (⟨S512, .i32⟩ : BufTy).Contents (Elt Ideal)) (a p n : Fin 512) :
    val_main_v30 (F := Ideal) x1 (ix3 a p n)
      = if (a ≠ p ∧ Cert.Spec.arr1 x1 a = Cert.Spec.arr1 x1 p) ∧ (a ≠ n ∧ Cert.Spec.arr1 x1 a ≠ Cert.Spec.arr1 x1 n) then 1#1 else 0#1 := by
  rw [val_main_v30_apply, val_main_v28_apply, val_main_v29_apply, val_main_v26_apply, val_main_v27_apply]
  have e1 : idx_main_v26 (idx_main_v28 (ix3 a p n)) = ix2 a p := by
    funext d; match d with | ⟨0, _⟩ => rfl | ⟨1, _⟩ => rfl
  have e2 : idx_main_v27 (idx_main_v29 (ix3 a p n)) = ix2 a n := by
    funext d; match d with | ⟨0, _⟩ => rfl | ⟨1, _⟩ => rfl
  -- operations %23 and %25 are the positive-pair and negative-pair masks of the labels
  have h23 : val_main_v23 (F := Ideal) x1 = Cert.Spec.posBits bcast_S512_S512x1_0 bcast_S512_S1x512_1
      bcast_S512x1_S512x512_0_1 bcast_S1x512_S512x512_0_1 bcast_S_S512x512 x1 := rfl
  have h25 : val_main_v25 (F := Ideal) x1 = Cert.Spec.negBits bcast_S512_S512x1_0 bcast_S512_S1x512_1
      bcast_S512x1_S512x512_0_1 bcast_S1x512_S512x512_0_1 bcast_S_S512x512 x1 := rfl
  rw [e1, e2, h23, h25, Cert.Spec.posBits_apply, Cert.Spec.negBits_apply]
  by_cases hp : a ≠ p ∧ Cert.Spec.arr1 x1 a = Cert.Spec.arr1 x1 p <;>
    by_cases hn : a ≠ n ∧ Cert.Spec.arr1 x1 a ≠ Cert.Spec.arr1 x1 n
  · rw [if_pos hp, if_pos hn, if_pos ⟨hp, hn⟩]; rfl
  · rw [if_pos hp, if_neg hn, if_neg (fun h => hn h.2)]; rfl
  · rw [if_neg hp, if_pos hn, if_neg (fun h => hp h.1)]; rfl
  · rw [if_neg hp, if_neg hn, if_neg (fun h => hp h.1)]; rfl

/-- The reference's divisor (operation %43): the number of valid triples — an int32 sum of at most 2²⁷ ones, which does not
    wrap — at least one, as a real. -/
theorem ref_count (x1 : (⟨S512, .i32⟩ : BufTy).Contents (Elt Ideal)) (y : S_.Idx) :
    val_main_v43 (F := Ideal) x1 y
      = max (Cert.Spec.count (Cert.Spec.pos (Cert.Spec.arr1 x1)) (Cert.Spec.neg (Cert.Spec.arr1 x1))) 1 := by
  classical
  -- the number of valid triples, as a natural number
  set c : Fin 512 → Fin 512 → Fin 512 → ℕ := fun a p n =>
    if (a ≠ p ∧ Cert.Spec.arr1 x1 a = Cert.Spec.arr1 x1 p) ∧ (a ≠ n ∧ Cert.Spec.arr1 x1 a ≠ Cert.Spec.arr1 x1 n) then 1 else 0 with hc
  set N : ℕ := ∑ a : Fin 512, ∑ p : Fin 512, ∑ n : Fin 512, c a p n with hN
  have hNle : N ≤ 512 * (512 * 512) := by
    calc N ≤ ∑ a : Fin 512, ∑ p : Fin 512, ∑ n : Fin 512, 1 :=
          Finset.sum_le_sum fun a _ => Finset.sum_le_sum fun p _ => Finset.sum_le_sum fun n _ => by
            show (if _ then 1 else 0) ≤ 1
            split <;> omega
      _ = 512 * (512 * 512) := by simp
  -- the mask's set bits, summed over the rank-3 index type, are that number
  have hbits : (∑ i : S512x512x512.Idx, if val_main_v30 (F := Ideal) x1 i = 1#1 then 1 else 0) = N := by
    rw [sum_idx3]
    refine Finset.sum_congr rfl fun a _ => Finset.sum_congr rfl fun p _ => Finset.sum_congr rfl fun n _ => ?_
    rw [ref_mask]
    show _ = if _ then 1 else 0
    split
    · rw [if_pos rfl]
    · rw [if_neg (by decide)]
  -- the int32 sum of the widened bits does not wrap: its value is that number
  have h41 : (val_main_v41 (F := Ideal) x1 y).toNat = N := by
    have := toNat_reduce_count_all (val_main_v30 (F := Ideal) x1) natLt_1_32 reducesTo_S512x512x512_S_d0_1_2 h_S_ y
      (by rw [hbits]; omega)
    rw [hbits] at this
    exact this
  -- at least one, read signed, exactly
  have h43 : val_main_v43 (F := Ideal) x1 y = (((max N 1 : ℕ) : ℤ) : ℝ) := by
    show (((IntOp.maxsi (val_main_v41 (F := Ideal) x1 y) 1#32).toInt : ℝ) : EReal) = _
    rw [toInt_maxsi_one _ (by rw [h41]; omega), h41]
  -- the same number on the extended reals
  have hcount : Cert.Spec.count (Cert.Spec.pos (Cert.Spec.arr1 x1)) (Cert.Spec.neg (Cert.Spec.arr1 x1)) = (N : EReal) := by
    unfold Cert.Spec.count
    rw [hN]
    push_cast
    refine Finset.sum_congr rfl fun a _ => Finset.sum_congr rfl fun p _ => Finset.sum_congr rfl fun n _ => ?_
    unfold Cert.Spec.pos Cert.Spec.neg
    by_cases hp : a ≠ p ∧ Cert.Spec.arr1 x1 a = Cert.Spec.arr1 x1 p <;>
      by_cases hn : a ≠ n ∧ Cert.Spec.arr1 x1 a ≠ Cert.Spec.arr1 x1 n
    · rw [if_pos hp, if_pos hn, hc]; simp only [if_pos (And.intro hp hn)]; simp
    · rw [if_pos hp, if_neg hn, hc]; simp only [if_neg (fun h : _ ∧ _ => hn h.2)]; simp
    · rw [if_neg hp, if_pos hn, hc]; simp only [if_neg (fun h : _ ∧ _ => hp h.1)]; simp
    · rw [if_neg hp, if_neg hn, hc]; simp only [if_neg (fun h : _ ∧ _ => hp h.1)]; simp
  rw [h43, hcount, Int.cast_natCast]
  show ((max N 1 : ℕ) : EReal) = _
  rcases Nat.eq_zero_or_pos N with h0 | hpos
  · rw [h0]
    show ((1 : ℕ) : EReal) = max ((0 : ℕ) : EReal) 1
    rw [Nat.cast_zero, Nat.cast_one, max_eq_right zero_le_one]
  · rw [max_eq_left hpos, max_eq_left]
    rw [← Nat.cast_one, EReal.natCast_le_iff]
    exact hpos

end Cert.ReferenceIdeal.RefValue

end
-- ==== Proof.Ref.Value.lean ====
import proofs.«121024_j55929064128529_1_alg».proof.Proof.Gen.ReferenceIdeal.Read
import proofs.«121024_j55929064128529_1_alg».proof.Proof.Spec
import proofs.«121024_j55929064128529_1_alg».proof.Proof.Mask
import proofs.«121024_j55929064128529_1_alg».proof.Proof.Ref.Dist
import proofs.«121024_j55929064128529_1_alg».proof.Proof.Ref.Count
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Idealize.ShloMosaic Idealize.ShloMosaic.TcCoe Idealize.SL.Sem
open Cert.ReferenceIdeal Cert.ReferenceIdeal.Gen Cert.ReferenceIdeal.Read
open ValueIdx

/-- The minuend of the hinge at a triple `(a, p, n)` is the distance at `(a, p)`. -/
theorem idx_ap (a p n : Fin 512) : idx_main_v31 (idx_main_v33 (ix3 a p n)) = ix2 a p :=
  funext fun d => Fin.ext (by match d with | ⟨0, _⟩ => rfl | ⟨1, _⟩ => rfl)

/-- The subtrahend of the hinge at a triple `(a, p, n)` is the distance at `(a, n)`. -/
theorem idx_an (a p n : Fin 512) : idx_main_v32 (idx_main_v34 (ix3 a p n)) = ix2 a n :=
  funext fun d => Fin.ext (by match d with | ⟨0, _⟩ => rfl | ⟨1, _⟩ => rfl)

/-- A selection on a bit that is set exactly when `c` holds is the conditional on `c`. -/
theorem select_bit {α : Type} (c : Prop) [Decidable c] (u v : α) :
    Scalar.select (if c then 1#1 else 0#1) u v = if c then u else v := by
  by_cases h : c
  · rw [if_pos h, if_pos h]; exact select_one u v
  · rw [if_neg h, if_neg h]; exact select_zero u v

/-- A value kept where both conditions hold and replaced by zero elsewhere is the value times the two 0/1 indicators. -/
theorem ite_and_eq_mul (P Q : Prop) [Decidable P] [Decidable Q] (h : EReal) :
    (if P ∧ Q then h else 0) = h * ((if P then (1 : EReal) else 0) * (if Q then (1 : EReal) else 0)) := by
  by_cases hP : P <;> by_cases hQ : Q <;> simp [hP, hQ]

/-- The reference's masked hinge (operation %39) at a triple: the hinge of the triple times its two validity indicators. -/
theorem ref_term (x0 : (⟨S512x512, .f32⟩ : BufTy).Contents (Elt Ideal)) (x1 : (⟨S512, .i32⟩ : BufTy).Contents (Elt Ideal))
    (a p n : Fin 512) :
    val_main_v39 (F := Ideal) x0 x1 (ix3 a p n)
      = Cert.Spec.hinge (Cert.Spec.dist (Cert.Spec.arr2 x0)) a p n
          * (Cert.Spec.pos (Cert.Spec.arr1 x1) a p * Cert.Spec.neg (Cert.Spec.arr1 x1) a n) := by
  rw [val_main_v39_apply, ref_mask, select_bit, val_main_v38_apply, val_main_v37_apply, val_main_v35_apply,
    val_main_v33_apply, val_main_v31_apply, val_main_v34_apply, val_main_v32_apply, val_main_v36_apply,
    val_main_cst_1_apply, val_main_call0_v0_apply, val_main_call0_cst_apply, val_main_call1_v0_apply,
    val_main_cst_2_apply, idx_ap, idx_an, ref_dist, ref_dist]
  simp only [Ideal.addf_def, Ideal.subf_def, Ideal.maximumf_def, Ideal.ofBits_def, Ideal.ofBits_zero_f32]
  exact ite_and_eq_mul _ _ _

/-- The reference's numerator (operation %44): the masked sum of hinges over all triples. -/
theorem ref_total (x0 : (⟨S512x512, .f32⟩ : BufTy).Contents (Elt Ideal)) (x1 : (⟨S512, .i32⟩ : BufTy).Contents (Elt Ideal)) (y : S_.Idx) :
    val_main_v44 (F := Ideal) x0 x1 y
      = Cert.Spec.total (Cert.Spec.dist (Cert.Spec.arr2 x0)) (Cert.Spec.pos (Cert.Spec.arr1 x1)) (Cert.Spec.neg (Cert.Spec.arr1 x1)) := by
  rw [val_main_v44_apply, val_main_cst_5_apply, sum_idx3]
  simp only [ref_term, Ideal.ofBits_def, Ideal.ofBits_zero_f32, zero_add]
  rfl

/-- The reference computes the loss. -/
theorem ref_is_loss (x0 : (⟨S512x512, .f32⟩ : BufTy).Contents (Elt Ideal)) (x1 : (⟨S512, .i32⟩ : BufTy).Contents (Elt Ideal)) :
    val_main_v45 (F := Ideal) x0 x1 = fun _ => Cert.Spec.loss (Cert.Spec.arr2 x0) (Cert.Spec.arr1 x1) := by
  funext y
  rw [val_main_v45_apply, ref_total, ref_count, Ideal.hostDivf_def]
  rfl

end Cert.ReferenceIdeal.RefValue

end
-- ==== Proof.lean ====
/- The triplet loss kernel against its reference: the five claims.

  The kernel's program is two pallas_calls between two stretches of host operations: the label masks on the host, the
  512×512 squared-distance matrix in Gram form in one grid point, then 128 grid points over (anchor, positive, negative)
  blocks that accumulate the masked sum of hinges and the number of valid triples in two 1×1 outputs, and on the host the
  sum divided by the count clamped at one. The reference builds the whole 512×512×512 tensor of hinges, selects the valid
  triples, sums them, counts them in int32 and divides.

  On the extended reals both compute `Cert.Spec.loss` of the two argument arrays: a product with a 0/1 mask is a selection
  (`x · 1 = x`, `x · 0 = 0` for every extended real), the blocks tile the cube of triples and sums may be regrouped
  (addition is commutative and associative), the int32 count of at most 2²⁷ ones does not wrap. No finiteness is used.

  Frames: each program's run through its four segments (host stretch, region, region, host stretch), with every unscoped
  buffer's contents named at every boundary; region 1 reads the distance matrix through two windows and holds its buffer as
  two half shares. The ideal pass rewrote nothing, so `preserves` is `True`. -/
import proofs.«121024_j55929064128529_1_alg».proof.Defs
import proofs.«121024_j55929064128529_1_alg».proof.Proof.Gen.Kernel
import proofs.«121024_j55929064128529_1_alg».proof.Proof.Gen.KernelIdeal
import proofs.«121024_j55929064128529_1_alg».proof.Proof.Gen.ReferenceIdeal
import proofs.«121024_j55929064128529_1_alg».proof.Proof.Gen.Pre_finite_inputs
import proofs.«121024_j55929064128529_1_alg».proof.Proof.Gen.ReferenceIdeal.Run
import proofs.«121024_j55929064128529_1_alg».proof.Proof.Gen.ReferenceIdeal.Read
import proofs.«121024_j55929064128529_1_alg».proof.Proof.K.Run
import proofs.«121024_j55929064128529_1_alg».proof.Proof.KI.Run
import proofs.«121024_j55929064128529_1_alg».proof.Proof.KI.ValFinal
import proofs.«121024_j55929064128529_1_alg».proof.Proof.Ref.Value
import Idealize.ShloMosaic.Adequacy
import Idealize.ShloMosaic.Init

noncomputable section

namespace Cert.Proof

open Idealize.ShloMosaic Idealize.ShloMosaic.TcCoe Idealize.SL.Sem

/-- The word-level program runs and leaves its arguments unchanged. -/
theorem frame_kernel : Cert.frame_Kernel (hKernel := Cert.Kernel.Gen.facts) (hPre_finite_inputs := Cert.Pre_finite_inputs.Gen.facts) :=
  fun m ρ _ => Cert.Kernel.Hand.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame m ρ

/-- The reference is a straight line of host operations: its run, with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the loss of the (agreeing) argument arrays in their result buffer. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => fun _ => Cert.Spec.loss (Cert.Spec.arr2 (m ((c.tc : Thread Cert.KernelIdeal.nD Cert.KernelIdeal.τ).loc Cert.KernelIdeal.main_arg0)))
      (Cert.Spec.arr1 (m ((c.tc : Thread Cert.KernelIdeal.nD Cert.KernelIdeal.τ).loc Cert.KernelIdeal.main_arg1))), ?_, ?_⟩
  · refine (θ_run Cert.KernelIdeal.defs _ _).mono (fun r h c => ⟨?_, ?_, ?_⟩) (Cert.KernelIdeal.Hand.run_all (F := Ideal) m ρ)
    · exact (h c _ (Cert.KernelIdeal.Hand.mem_uc Cert.KernelIdeal.main_v21 (by decide))).trans (Cert.KernelIdeal.Val.kernel_is_loss m ρ c)
    · exact (h c _ (Cert.KernelIdeal.Hand.mem_uc Cert.KernelIdeal.main_arg0 (by decide))).trans (Cert.KernelIdeal.Hand.W4_arg0 m ρ c)
    · exact (h c _ (Cert.KernelIdeal.Hand.mem_uc Cert.KernelIdeal.main_arg1 (by decide))).trans (Cert.KernelIdeal.Hand.W4_arg1 m ρ c)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v45_eq, Cert.ReferenceIdeal.RefValue.ref_is_loss, (hagree c).1, (hagree c).2]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
